-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v52)) (v1 : (c : Dev Cert.KernelIdeal.nD) → Buf (Elt Ideal) ((c.tc : Thread Cert.KernelIdeal.nD Cert.KernelIdeal.τ).loc Cert.KernelIdeal.main_v53)) (v2 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_v53) = v1 c
          ∧ r.2.mem ((c.tc : Thread Cert.KernelIdeal.nD Cert.KernelIdeal.τ).loc Cert.KernelIdeal.main_v54) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S150000x64 : Shape := ⟨2, ![150000, 64]⟩
abbrev S3999136 : Shape := ⟨1, ![3999136]⟩
abbrev S4096 : Shape := ⟨1, ![4096]⟩
abbrev S_ : Shape := ⟨0, ![]⟩

class Facts : Prop where
  bcast_S_S150000x64 : S_.BroadcastsInDim S150000x64 (![] : Fin 0 → Fin S150000x64.rank)
  reducesTo_S150000x64_S_d0_1 : S150000x64.ReducesTo [0, 1] S_
  h_S_ : 0 < S_.numel
  bcast_S_S3999136 : S_.BroadcastsInDim S3999136 (![] : Fin 0 → Fin S3999136.rank)
  reducesTo_S3999136_S_d0 : S3999136.ReducesTo [0] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : IVec S4096 32) (main_arg6 : IVec S4096 32) (main_v15 : IVec S_ 1) (main_c_5 : IVec S_ 32) : IVec S_ 1 :=
  let main_v16 : IVec S4096 32 := broadcastInDim S4096 ![] bcast_S_S4096 main_c_5
  let main_v17 : IVec S4096 1 := cmpi .sge main_arg5 main_v16
  let main_c_6 : IVec S_ 32 := constantI S_ 32 50000#32
  let main_v18 : IVec S4096 32 := broadcastInDim S4096 ![] bcast_S_S4096 main_c_6
  let main_v19 : IVec S4096 1 := cmpi .slt main_arg5 main_v18
  let main_v20 : IVec S4096 1 := andi main_v17 main_v19
  let main_c_7 : IVec S_ 1 := constantI S_ 1 1#1
  let main_v21 : IVec S_ 1 := (fun x v => Host.reduce IntOp.andi x v reducesTo_S4096_S_d0 h_S_) main_v20 main_c_7
  let main_v22 : IVec S_ 1 := andi main_v15 main_v21
  let main_c_8 : IVec S_ 32 := constantI S_ 32 0#32
  let main_v23 : IVec S4096 32 := broadcastInDim S4096 ![] bcast_S_S4096 main_c_8
  let main_v24 : IVec S4096 1 := cmpi .sge main_arg6 main_v23
  let main_c_9 : IVec S_ 32 := constantI S_ 32 50000#32
  let main_v25 : IVec S4096 32 := broadcastInDim S4096 ![] bcast_S_S4096 main_c_9
  let main_v26 : IVec S4096 1 := cmpi .slt main_arg6 main_v25
  let main_v27 : IVec S4096 1 := andi main_v24 main_v26
  let main_c_10 : IVec S_ 1 := constantI S_ 1 1#1
  let main_v28 : IVec S_ 1 := (fun x v => Host.reduce IntOp.andi x v reducesTo_S4096_S_d0 h_S_) main_v27 main_c_10
  let main_v29 : IVec S_ 1 := andi main_v22 main_v28
  main_v29

def fn {F : FTy → Type} [FloatOps F] (main_arg0 : FVec F S150000x64 .f32) (main_arg1 : FVec F S3999136 .f32) (main_arg2 : IVec S3999136 32) (main_arg3 : IVec S3999136 32) (main_arg4 : IVec S4096 32) (main_arg5 : IVec S4096 32) (main_arg6 : IVec S4096 32) : IVec S_ 1 :=
  let main_v0 : FVec F S150000x64 .f32 := Host.absf main_arg0
  let main_cst : FVec F S_ .f32 := constant S_ .f32 0x7F800000#32
  let main_v1 : FVec F S150000x64 .f32 := broadcastInDim S150000x64 ![] bcast_S_S150000x64 main_cst
  let main_v2 : IVec S150000x64 1 := cmpf .olt main_v0 main_v1
  let main_c : IVec S_ 1 := constantI S_ 1 1#1
  let main_v3 : IVec S_ 1 := (fun x v => Host.reduce IntOp.andi x v reducesTo_S150000x64_S_d0_1 h_S_) main_v2 main_c
  let main_v4 : FVec F S3999136 .f32 := Host.absf main_arg1
  let main_cst_0 : FVec F S_ .f32 := constant S_ .f32 0x7F800000#32
  let main_v5 : FVec F S3999136 .f32 := broadcastInDim S3999136 ![] bcast_S_S3999136 main_cst_0
  let main_v6 : IVec S3999136 1 := cmpf .olt main_v4 main_v5
  let main_c_1 : IVec S_ 1 := constantI S_ 1 1#1
  let main_v7 : IVec S_ 1 := (fun x v => Host.reduce IntOp.andi x v reducesTo_S3999136_S_d0 h_S_) main_v6 main_c_1
  let main_v8 : IVec S_ 1 := andi main_v3 main_v7
  let main_c_2 : IVec S_ 32 := constantI S_ 32 0#32
  let main_v9 : IVec S4096 32 := broadcastInDim S4096 ![] bcast_S_S4096 main_c_2
  let main_v10 : IVec S4096 1 := cmpi .sge main_arg4 main_v9
  let main_c_3 : IVec S_ 32 := constantI S_ 32 100000#32
  let main_v11 : IVec S4096 32 := broadcastInDim S4096 ![] bcast_S_S4096 main_c_3
  let main_v12 : IVec S4096 1 := cmpi .slt main_arg4 main_v11
  let main_v13 : IVec S4096 1 := andi main_v10 main_v12
  let main_c_4 : IVec S_ 1 := constantI S_ 1 1#1
  let main_v14 : IVec S_ 1 := (fun x v => Host.reduce IntOp.andi x v reducesTo_S4096_S_d0 h_S_) main_v13 main_c_4
  let main_v15 : IVec S_ 1 := andi main_v8 main_v14
  let main_c_5 : IVec S_ 32 := constantI S_ 32 0#32
  fn_part1 (F := F) main_arg5 main_arg6 main_v15 main_c_5
-- ==== Kernel.lean ====
abbrev S150000x64 : Shape := ⟨2, ![150000, 64]⟩
abbrev S3999136 : Shape := ⟨1, ![3999136]⟩
abbrev S4096 : Shape := ⟨1, ![4096]⟩
abbrev S3999136x1 : Shape := ⟨2, ![3999136, 1]⟩
abbrev S_ : Shape := ⟨0, ![]⟩
abbrev S3999136x64 : Shape := ⟨2, ![3999136, 64]⟩
abbrev S3000x64 : Shape := ⟨2, ![3000, 64]⟩
abbrev S12288 : Shape := ⟨1, ![12288]⟩
abbrev S12288x1 : Shape := ⟨2, ![12288, 1]⟩
abbrev S12288x64 : Shape := ⟨2, ![12288, 64]⟩
abbrev S4096x64 : Shape := ⟨2, ![4096, 64]⟩

abbrev nBuf : Space → Nat
  | .hbm => 75
  | .vmem => 10
  | .smem => 0
  | _ => 0

abbrev bufTy : (tb : Table) → Fin (tcTables nBuf tb) → BufTy
  | .hbm, ⟨0, _⟩ => ⟨S150000x64, .f32⟩
  | .hbm, ⟨1, _⟩ => ⟨S3999136, .f32⟩
  | .hbm, ⟨2, _⟩ => ⟨S3999136, .i32⟩
  | .hbm, ⟨3, _⟩ => ⟨S3999136, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S3999136x1, .f32⟩
  | .hbm, ⟨8, _⟩ => ⟨S_, .i32⟩
  | .hbm, ⟨9, _⟩ => ⟨S3999136, .i32⟩
  | .hbm, ⟨10, _⟩ => ⟨S3999136, .i1⟩
  | .hbm, ⟨11, _⟩ => ⟨S_, .i32⟩
  | .hbm, ⟨12, _⟩ => ⟨S3999136, .i32⟩
  | .hbm, ⟨13, _⟩ => ⟨S3999136, .i32⟩
  | .hbm, ⟨14, _⟩ => ⟨S3999136, .i32⟩
  | .hbm, ⟨15, _⟩ => ⟨S3999136x1, .i32⟩
  | .hbm, ⟨16, _⟩ => ⟨S3999136x64, .f32⟩
  | .hbm, ⟨17, _⟩ => ⟨S3999136x64, .f32⟩
  | .hbm, ⟨18, _⟩ => ⟨S3999136x64, .f32⟩
  | .hbm, ⟨19, _⟩ => ⟨S_, .f32⟩
  | .hbm, ⟨20, _⟩ => ⟨S150000x64, .f32⟩
  | .hbm, ⟨21, _⟩ => ⟨S3999136x1, .i32⟩
  | .hbm, ⟨22, _⟩ => ⟨S150000x64, .f32⟩
  | .hbm, ⟨23, _⟩ => ⟨S3999136x1, .f32⟩
  | .hbm, ⟨24, _⟩ => ⟨S_, .i32⟩
  | .hbm, ⟨25, _⟩ => ⟨S3999136, .i32⟩
  | .hbm, ⟨26, _⟩ => ⟨S3999136, .i1⟩
  | .hbm, ⟨27, _⟩ => ⟨S_, .i32⟩
  | .hbm, ⟨28, _⟩ => ⟨S3999136, .i32⟩
  | .hbm, ⟨29, _⟩ => ⟨S3999136, .i32⟩
  | .hbm, ⟨30, _⟩ => ⟨S3999136, .i32⟩
  | .hbm, ⟨31, _⟩ => ⟨S3999136x1, .i32⟩
  | .hbm, ⟨32, _⟩ => ⟨S3999136x64, .f32⟩
  | .hbm, ⟨33, _⟩ => ⟨S3999136x64, .f32⟩
  | .hbm, ⟨34, _⟩ => ⟨S3999136x64, .f32⟩
  | .hbm, ⟨35, _⟩ => ⟨S_, .f32⟩
  | .hbm, ⟨36, _⟩ => ⟨S150000x64, .f32⟩
  | .hbm, ⟨37, _⟩ => ⟨S3999136x1, .i32⟩
  | .hbm, ⟨38, _⟩ => ⟨S150000x64, .f32⟩
  | .hbm, ⟨39, _⟩ => ⟨S3999136x1, .f32⟩
  | .hbm, ⟨40, _⟩ => ⟨S_, .i32⟩
  | .hbm, ⟨41, _⟩ => ⟨S3999136, .i32⟩
  | .hbm, ⟨42, _⟩ => ⟨S3999136, .i1⟩
  | .hbm, ⟨43, _⟩ => ⟨S_, .i32⟩
  | .hbm, ⟨44, _⟩ => ⟨S3999136, .i32⟩
  | .hbm, ⟨45, _⟩ => ⟨S3999136, .i32⟩
  | .hbm, ⟨46, _⟩ => ⟨S3999136, .i32⟩
  | .hbm, ⟨47, _⟩ => ⟨S3999136x1, .i32⟩
  | .hbm, ⟨48, _⟩ => ⟨S3999136x64, .f32⟩
  | .hbm, ⟨49, _⟩ => ⟨S3999136x64, .f32⟩
  | .hbm, ⟨50, _⟩ => ⟨S3999136x64, .f32⟩
  | .hbm, ⟨51, _⟩ => ⟨S_, .f32⟩
  | .hbm, ⟨52, _⟩ => ⟨S150000x64, .f32⟩
  | .hbm, ⟨53, _⟩ => ⟨S3999136x1, .i32⟩
  | .hbm, ⟨54, _⟩ => ⟨S150000x64, .f32⟩
  | .hbm, ⟨55, _⟩ => ⟨S150000x64, .f32⟩
  | .hbm, ⟨56, _⟩ => ⟨S_, .i32⟩
  | .hbm, ⟨57, _⟩ => ⟨S4096, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i32⟩
  | .hbm, ⟨62, _⟩ => ⟨S12288, .i32⟩
  | .hbm, ⟨63, _⟩ => ⟨S_, .i32⟩
  | .hbm, ⟨64, _⟩ => ⟨S12288, .i32⟩
  | .hbm, ⟨65, _⟩ => ⟨S12288, .i1⟩
  | .hbm, ⟨66, _⟩ => ⟨S_, .i32⟩
  | .hbm, ⟨67, _⟩ => ⟨S12288, .i32⟩
  | .hbm, ⟨68, _⟩ => ⟨S12288, .i32⟩
  | .hbm, ⟨69, _⟩ => ⟨S12288, .i32⟩
  | .hbm, ⟨70, _⟩ => ⟨S12288x1, .i32⟩
  | .hbm, ⟨71, _⟩ => ⟨S12288x64, .f32⟩
  | .hbm, ⟨72, _⟩ => ⟨S4096x64, .f32⟩
  | .hbm, ⟨73, _⟩ => ⟨S4096x64, .f32⟩
  | .hbm, ⟨74, _⟩ => ⟨S4096x64, .f32⟩
  | .local _ .vmem, ⟨0, _⟩ => ⟨S3000x64, .f32⟩
  | .local _ .vmem, ⟨1, _⟩ => ⟨S3000x64, .f32⟩
  | .local _ .vmem, ⟨2, _⟩ => ⟨S3000x64, .f32⟩
  | .local _ .vmem, ⟨3, _⟩ => ⟨S3000x64, .f32⟩
  | .local _ .vmem, ⟨4, _⟩ => ⟨S3000x64, .f32⟩
  | .local _ .vmem, ⟨5, _⟩ => ⟨S3000x64, .f32⟩
  | .local _ .vmem, ⟨6, _⟩ => ⟨S3000x64, .f32⟩
  | .local _ .vmem, ⟨7, _⟩ => ⟨S3000x64, .f32⟩
  | .local _ .vmem, ⟨8, _⟩ => ⟨S3000x64, .f32⟩
  | .local _ .vmem, ⟨9, _⟩ => ⟨S3000x64, .f32⟩
  | _, _ => ⟨S150000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_1 : Ref sig .tc := ⟨.hbm, 24, rfl⟩
abbrev main_v14 : Ref sig .tc := ⟨.hbm, 25, rfl⟩
abbrev main_v15 : Ref sig .tc := ⟨.hbm, 26, rfl⟩
abbrev main_c_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_6 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_c_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_c_9 : Ref sig .tc := ⟨.hbm, 63, rfl⟩
abbrev main_v45 : Ref sig .tc := ⟨.hbm, 64, rfl⟩
abbrev main_v46 : Ref sig .tc := ⟨.hbm, 65, rfl⟩
abbrev main_c_10 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S3999136_S3999136x1_0 : S3999136.BroadcastsInDim S3999136x1 (![0] : Fin 1 → Fin S3999136x1.rank)
  bcast_S_S3999136 : S_.BroadcastsInDim S3999136 (![] : Fin 0 → Fin S3999136.rank)
  bcast_S3999136x1_S3999136x64_0_1 : S3999136x1.BroadcastsInDim S3999136x64 (![0, 1] : Fin 2 → Fin S3999136x64.rank)
  bcast_S_S150000x64 : S_.BroadcastsInDim S150000x64 (![] : Fin 0 → Fin S150000x64.rank)
  inb_S3000x64_S3000x64_0_0 : ∀ a, (![0, 0] : Fin 2 → Nat) a + S3000x64.size a ≤ S3000x64.size a
  h_S3000x64 : 0 < S3000x64.numel
  shapeCasts_S3000x64_S3000x64 : S3000x64.ShapeCasts S3000x64
  bcast_S_S4096 : S_.BroadcastsInDim S4096 (![] : Fin 0 → Fin S4096.rank)
  concatenates_S4096_S4096_S4096_S12288_d0 : Shape.Concatenates [S4096, S4096, S4096] S12288 0
  bcast_S_S12288 : S_.BroadcastsInDim S12288 (![] : Fin 0 → Fin S12288.rank)
  bcast_S12288_S12288x1_0 : S12288.BroadcastsInDim S12288x1 (![0] : Fin 1 → Fin S12288x1.rank)
  slices_S12288x64_S4096x64_0_0 : S12288x64.Slices ![0, 0] S4096x64
  slices_S12288x64_S4096x64_4096_0 : S12288x64.Slices ![4096, 0] S4096x64
  slices_S12288x64_S4096x64_8192_0 : S12288x64.Slices ![8192, 0] S4096x64
  gather_S150000x64_S3999136x1_S3999136x64_1_0_n_n_0_1_164_wf : GatherDims.WF S150000x64 S3999136x1 S3999136x64 [1] [0] [] [0] [] 1 ![1, 64]
  scatter_S150000x64_S3999136x1_S3999136x64_1_0_0_1_wf : ScatterDims.WF S150000x64 S3999136x1 S3999136x64 [1] [0] [0] 1
  gather_S150000x64_S12288x1_S12288x64_1_0_n_n_0_1_164_wf : GatherDims.WF S150000x64 S12288x1 S12288x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3000x64.size a ≤ S150000x64.size a
  hwx0_0 : ∀ i : grid0.Coords, EltTy.bits .f32 = 32 ∨ (Rect.block (s := S150000x64) S3000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3000x64.size a ≤ S150000x64.size a
  hwx0_1 : ∀ i : grid0.Coords, EltTy.bits .f32 = 32 ∨ (Rect.block (s := S150000x64) S3000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3000x64.size a ≤ S150000x64.size a
  hwx0_2 : ∀ i : grid0.Coords, EltTy.bits .f32 = 32 ∨ (Rect.block (s := S150000x64) S3000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S3000x64.size a ≤ S150000x64.size a
  hwx0_3 : ∀ i : grid0.Coords, EltTy.bits .f32 = 32 ∨ (Rect.block (s := S150000x64) S3000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S3000x64.size a ≤ S150000x64.size a
  hwx0_4 : ∀ i : grid0.Coords, EltTy.bits .f32 = 32 ∨ (Rect.block (s := S150000x64) S3000x64.size (cc0_transform_4 i) (hinb0_4 i)).WholeWords (EltTy.packing .f32)

variable [Facts₀]

def gather_S150000x64_S3999136x1_S3999136x64_1_0_n_n_0_1_164 : GatherDims S150000x64 S3999136x1 S3999136x64 where
  offsetDims := [1]
  collapsedSliceDims := [0]
  operandBatchingDims := []
  startIndicesBatchingDims := []
  startIndexMap := [0]
  indexVectorDim := 1
  sliceSizes := ![1, 64]
  wf := gather_S150000x64_S3999136x1_S3999136x64_1_0_n_n_0_1_164_wf
def scatter_S150000x64_S3999136x1_S3999136x64_1_0_0_1 : ScatterDims S150000x64 S3999136x1 S3999136x64 where
  updateWindowDims := [1]
  insertedWindowDims := [0]
  scatterDimsToOperandDims := [0]
  indexVectorDim := 1
  wf := scatter_S150000x64_S3999136x1_S3999136x64_1_0_0_1_wf
def gather_S150000x64_S12288x1_S12288x64_1_0_n_n_0_1_164 : GatherDims S150000x64 S12288x1 S12288x64 where
  offsetDims := [1]
  collapsedSliceDims := [0]
  operandBatchingDims := []
  startIndicesBatchingDims := []
  startIndexMap := [0]
  indexVectorDim := 1
  sliceSizes := ![1, 64]
  wf := gather_S150000x64_S12288x1_S12288x64_1_0_n_n_0_1_164_wf

abbrev win0_0 : Pipeline.Window sig grid0 :=
  Pipeline.Window.ofSpec (Memref.whole main_arg0) S3000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S3000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S3000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v38) S3000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v39) S3000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S150000x64 : Shape := ⟨2, ![150000, 64]⟩
abbrev S3999136 : Shape := ⟨1, ![3999136]⟩
abbrev S4096 : Shape := ⟨1, ![4096]⟩
abbrev S3999136x1 : Shape := ⟨2, ![3999136, 1]⟩
abbrev S_ : Shape := ⟨0, ![]⟩
abbrev S3999136x64 : Shape := ⟨2, ![3999136, 64]⟩
abbrev S100000x64 : Shape := ⟨2, ![100000, 64]⟩
abbrev S50000x64 : Shape := ⟨2, ![50000, 64]⟩
abbrev S4096x1 : Shape := ⟨2, ![4096, 1]⟩
abbrev S4096x64 : Shape := ⟨2, ![4096, 64]⟩

abbrev nBuf : Space → Nat
  | .hbm => 90
  | .vmem => 0
  | .smem => 0
  | _ => 0

abbrev bufTy : (tb : Table) → Fin (tcTables nBuf tb) → BufTy
  | .hbm, ⟨0, _⟩ => ⟨S150000x64, .f32⟩
  | .hbm, ⟨1, _⟩ => ⟨S3999136, .f32⟩
  | .hbm, ⟨2, _⟩ => ⟨S3999136, .i32⟩
  | .hbm, ⟨3, _⟩ => ⟨S3999136, .i32⟩
  | .hbm, ⟨4, _⟩ => ⟨S4096, .i32⟩
  | .hbm, ⟨5, _⟩ => ⟨S4096, .i32⟩
  | .hbm, ⟨6, _⟩ => ⟨S4096, .i32⟩
  | .hbm, ⟨7, _⟩ => ⟨S3999136x1, .f32⟩
  | .hbm, ⟨8, _⟩ => ⟨S_, .i32⟩
  | .hbm, ⟨9, _⟩ => ⟨S3999136, .i32⟩
  | .hbm, ⟨10, _⟩ => ⟨S3999136, .i1⟩
  | .hbm, ⟨11, _⟩ => ⟨S_, .i32⟩
  | .hbm, ⟨12, _⟩ => ⟨S3999136, .i32⟩
  | .hbm, ⟨13, _⟩ => ⟨S3999136, .i32⟩
  | .hbm, ⟨14, _⟩ => ⟨S3999136, .i32⟩
  | .hbm, ⟨15, _⟩ => ⟨S3999136x1, .i32⟩
  | .hbm, ⟨16, _⟩ => ⟨S3999136x64, .f32⟩
  | .hbm, ⟨17, _⟩ => ⟨S3999136x64, .f32⟩
  | .hbm, ⟨18, _⟩ => ⟨S3999136x64, .f32⟩
  | .hbm, ⟨19, _⟩ => ⟨S_, .f32⟩
  | .hbm, ⟨20, _⟩ => ⟨S150000x64, .f32⟩
  | .hbm, ⟨21, _⟩ => ⟨S3999136x1, .i32⟩
  | .hbm, ⟨22, _⟩ => ⟨S150000x64, .f32⟩
  | .hbm, ⟨23, _⟩ => ⟨S150000x64, .f32⟩
  | .hbm, ⟨24, _⟩ => ⟨S3999136x1, .f32⟩
  | .hbm, ⟨25, _⟩ => ⟨S_, .i32⟩
  | .hbm, ⟨26, _⟩ => ⟨S3999136, .i32⟩
  | .hbm, ⟨27, _⟩ => ⟨S3999136, .i1⟩
  | .hbm, ⟨28, _⟩ => ⟨S_, .i32⟩
  | .hbm, ⟨29, _⟩ => ⟨S3999136, .i32⟩
  | .hbm, ⟨30, _⟩ => ⟨S3999136, .i32⟩
  | .hbm, ⟨31, _⟩ => ⟨S3999136, .i32⟩
  | .hbm, ⟨32, _⟩ => ⟨S3999136x1, .i32⟩
  | .hbm, ⟨33, _⟩ => ⟨S3999136x64, .f32⟩
  | .hbm, ⟨34, _⟩ => ⟨S3999136x64, .f32⟩
  | .hbm, ⟨35, _⟩ => ⟨S3999136x64, .f32⟩
  | .hbm, ⟨36, _⟩ => ⟨S_, .f32⟩
  | .hbm, ⟨37, _⟩ => ⟨S150000x64, .f32⟩
  | .hbm, ⟨38, _⟩ => ⟨S3999136x1, .i32⟩
  | .hbm, ⟨39, _⟩ => ⟨S150000x64, .f32⟩
  | .hbm, ⟨40, _⟩ => ⟨S150000x64, .f32⟩
  | .hbm, ⟨41, _⟩ => ⟨S3999136x1, .f32⟩
  | .hbm, ⟨42, _⟩ => ⟨S_, .i32⟩
  | .hbm, ⟨43, _⟩ => ⟨S3999136, .i32⟩
  | .hbm, ⟨44, _⟩ => ⟨S3999136, .i1⟩
  | .hbm, ⟨45, _⟩ => ⟨S_, .i32⟩
  | .hbm, ⟨46, _⟩ => ⟨S3999136, .i32⟩
  | .hbm, ⟨47, _⟩ => ⟨S3999136, .i32⟩
  | .hbm, ⟨48, _⟩ => ⟨S3999136, .i32⟩
  | .hbm, ⟨49, _⟩ => ⟨S3999136x1, .i32⟩
  | .hbm, ⟨50, _⟩ => ⟨S3999136x64, .f32⟩
  | .hbm, ⟨51, _⟩ => ⟨S3999136x64, .f32⟩
  | .hbm, ⟨52, _⟩ => ⟨S3999136x64, .f32⟩
  | .hbm, ⟨53, _⟩ => ⟨S_, .f32⟩
  | .hbm, ⟨54, _⟩ => ⟨S150000x64, .f32⟩
  | .hbm, ⟨55, _⟩ => ⟨S3999136x1, .i32⟩
  | .hbm, ⟨56, _⟩ => ⟨S150000x64, .f32⟩
  | .hbm, ⟨57, _⟩ => ⟨S150000x64, .f32⟩
  | .hbm, ⟨58, _⟩ => ⟨S_, .f32⟩
  | .hbm, ⟨59, _⟩ => ⟨S150000x64, .f32⟩
  | .hbm, ⟨60, _⟩ => ⟨S150000x64, .f32⟩
  | .hbm, ⟨61, _⟩ => ⟨S100000x64, .f32⟩
  | .hbm, ⟨62, _⟩ => ⟨S50000x64, .f32⟩
  | .hbm, ⟨63, _⟩ => ⟨S_, .i32⟩
  | .hbm, ⟨64, _⟩ => ⟨S4096, .i32⟩
  | .hbm, ⟨65, _⟩ => ⟨S4096, .i1⟩
  | .hbm, ⟨66, _⟩ => ⟨S_, .i32⟩
  | .hbm, ⟨67, _⟩ => ⟨S4096, .i32⟩
  | .hbm, ⟨68, _⟩ => ⟨S4096, .i32⟩
  | .hbm, ⟨69, _⟩ => ⟨S4096, .i32⟩
  | .hbm, ⟨70, _⟩ => ⟨S4096x1, .i32⟩
  | .hbm, ⟨71, _⟩ => ⟨S4096x64, .f32⟩
  | .hbm, ⟨72, _⟩ => ⟨S_, .i32⟩
  | .hbm, ⟨73, _⟩ => ⟨S4096, .i32⟩
  | .hbm, ⟨74, _⟩ => ⟨S4096, .i1⟩
  | .hbm, ⟨75, _⟩ => ⟨S_, .i32⟩
  | .hbm, ⟨76, _⟩ => ⟨S4096, .i32⟩
  | .hbm, ⟨77, _⟩ => ⟨S4096, .i32⟩
  | .hbm, ⟨78, _⟩ => ⟨S4096, .i32⟩
  | .hbm, ⟨79, _⟩ => ⟨S4096x1, .i32⟩
  | .hbm, ⟨80, _⟩ => ⟨S4096x64, .f32⟩
  | .hbm, ⟨81, _⟩ => ⟨S_, .i32⟩
  | .hbm, ⟨82, _⟩ => ⟨S4096, .i32⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S4096x1, .i32⟩
  | .hbm, ⟨89, _⟩ => ⟨S4096x64, .f32⟩
  | _, _ => ⟨S150000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_v1 : Ref sig .tc := ⟨.hbm, 9, rfl⟩
abbrev main_v2 : Ref sig .tc := ⟨.hbm, 10, rfl⟩
abbrev main_c_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_c_1 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_7 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_8 : Ref sig .tc := ⟨.hbm, 63, rfl⟩
abbrev main_v46 : Ref sig .tc := ⟨.hbm, 64, rfl⟩
abbrev main_v47 : Ref sig .tc := ⟨.hbm, 65, rfl⟩
abbrev main_c_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_10 : Ref sig .tc := ⟨.hbm, 72, rfl⟩
abbrev main_v53 : Ref sig .tc := ⟨.hbm, 73, rfl⟩
abbrev main_v54 : Ref sig .tc := ⟨.hbm, 74, rfl⟩
abbrev main_c_11 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_c_12 : Ref sig .tc := ⟨.hbm, 81, rfl⟩
abbrev main_v60 : Ref sig .tc := ⟨.hbm, 82, rfl⟩
abbrev main_v61 : Ref sig .tc := ⟨.hbm, 83, rfl⟩
abbrev main_c_13 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩

abbrev nD : Nat := 1
abbrev τ : Topo := Topo.v7x

variable {F : FTy → Type} [FloatOps F]

class Facts₀ : Prop where
  bcast_S3999136_S3999136x1_0 : S3999136.BroadcastsInDim S3999136x1 (![0] : Fin 1 → Fin S3999136x1.rank)
  bcast_S_S3999136 : S_.BroadcastsInDim S3999136 (![] : Fin 0 → Fin S3999136.rank)
  bcast_S3999136x1_S3999136x64_0_1 : S3999136x1.BroadcastsInDim S3999136x64 (![0, 1] : Fin 2 → Fin S3999136x64.rank)
  bcast_S_S150000x64 : S_.BroadcastsInDim S150000x64 (![] : Fin 0 → Fin S150000x64.rank)
  slices_S150000x64_S100000x64_0_0 : S150000x64.Slices ![0, 0] S100000x64
  slices_S150000x64_S50000x64_100000_0 : S150000x64.Slices ![100000, 0] S50000x64
  bcast_S_S4096 : S_.BroadcastsInDim S4096 (![] : Fin 0 → Fin S4096.rank)
  bcast_S4096_S4096x1_0 : S4096.BroadcastsInDim S4096x1 (![0] : Fin 1 → Fin S4096x1.rank)
  gather_S150000x64_S3999136x1_S3999136x64_1_0_n_n_0_1_164_wf : GatherDims.WF S150000x64 S3999136x1 S3999136x64 [1] [0] [] [0] [] 1 ![1, 64]
  scatter_S150000x64_S3999136x1_S3999136x64_1_0_0_1_wf : ScatterDims.WF S150000x64 S3999136x1 S3999136x64 [1] [0] [0] 1
  gather_S100000x64_S4096x1_S4096x64_1_0_n_n_0_1_164_wf : GatherDims.WF S100000x64 S4096x1 S4096x64 [1] [0] [] [0] [] 1 ![1, 64]
  gather_S50000x64_S4096x1_S4096x64_1_0_n_n_0_1_164_wf : GatherDims.WF S50000x64 S4096x1 S4096x64 [1] [0] [] [0] [] 1 ![1, 64]

variable [Facts₀]

def gather_S150000x64_S3999136x1_S3999136x64_1_0_n_n_0_1_164 : GatherDims S150000x64 S3999136x1 S3999136x64 where
  offsetDims := [1]
  collapsedSliceDims := [0]
  operandBatchingDims := []
  startIndicesBatchingDims := []
  startIndexMap := [0]
  indexVectorDim := 1
  sliceSizes := ![1, 64]
  wf := gather_S150000x64_S3999136x1_S3999136x64_1_0_n_n_0_1_164_wf
def scatter_S150000x64_S3999136x1_S3999136x64_1_0_0_1 : ScatterDims S150000x64 S3999136x1 S3999136x64 where
  updateWindowDims := [1]
  insertedWindowDims := [0]
  scatterDimsToOperandDims := [0]
  indexVectorDim := 1
  wf := scatter_S150000x64_S3999136x1_S3999136x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S50000x64_S4096x1_S4096x64_1_0_n_n_0_1_164 : GatherDims S50000x64 S4096x1 S4096x64 where
  offsetDims := [1]
  collapsedSliceDims := [0]
  operandBatchingDims := []
  startIndicesBatchingDims := []
  startIndexMap := [0]
  indexVectorDim := 1
  sliceSizes := ![1, 64]
  wf := gather_S50000x64_S4096x1_S4096x64_1_0_n_n_0_1_164_wf

class Facts : Prop extends Facts₀ where

variable [Facts]
-- ==== Proof.MeanPoolFrameBits.lean ====
/-
  The frame of the mean-pooling program: its @main is three rounds of host gather / multiply / scatter-add, one
  pipelined region over 50 grid points, and a host tail (index offsets, a concatenate, a gather, three slices).
  At grid point t the region's body reads rows 3000·t … 3000·t + 2999 of the four [150000, 64] arrays (the embedding
  table and the three propagated tables) and writes the same rows of the pooled table: the entrywise sum of the four
  blocks times 0.25.  The blocks tile the arrays, every block is fetched before the body and written back after it,
  the body keeps nothing between points, and no host line after the region writes one of the five arrays.  So every
  weakly fair execution terminates without a fault, the seven argument arrays end as they began, and every other
  unscoped buffer ends at what the host tail computes from the region's arrays — among them the three results.
-/
import proofs.«420850_j17377437680517_2_alg».proof.Proof.Gen.Kernel.Launch
import proofs.«420850_j17377437680517_2_alg».proof.Proof.Gen.Kernel.Skeleton
import proofs.«420850_j17377437680517_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.MeanPool

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents on core `c` when the region is entered: the 48 host operations before it applied to the
    launch memory. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the region's arrays and buffers the region does not stage. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes one of the region's five arrays: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The argument arrays are written by no host line -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`: rows 3000·t … 3000·t + 2999 of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's staging buffer holds its block when the body starts, at every point. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the library's post -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## The body -/

/-- The whole [3000, 64] staging buffer: the one rectangle every load and the store of the body go through. -/
abbrev r0_0 : Rect S3000x64 := Rect.unit (s := S3000x64) ![0, 0] S3000x64.size inb_S3000x64_S3000x64_0_0

/-- What the body leaves in the output window's buffer, from the four input blocks: one store of the whole buffer,
    the sum of the four blocks times 0.25. -/
def out0_4 (x0 x1 x2 x3 : Vec F S3000x64 .f32) : Vec F S3000x64 .f32 :=
  View.canon [⟨r0_0, k0_pay1 (View.ld x0 r0_0) (View.ld x1 r0_0) (View.ld x2 r0_0) (View.ld x3 r0_0)⟩]

/-- The one store covers the buffer. -/
theorem cover0_4 (p0 : Vec F S3000x64 .f32) (y : S3000x64.Idx) :
    ∃ pc ∈ ([⟨r0_0, p0⟩] : List (View.Piece (Elt F) S3000x64 .f32)), y ∈ pc.1.set :=
  View.cover_of_tiled [⟨r0_0, p0⟩] S3000x64.size (by rfl) y

set_option maxHeartbeats 1000000 in
/-- The body on whole staging memrefs, the four inputs' at contents `x0 … x3` and the output's at anything, runs to
    the end leaving the inputs' as they were and the output's at `out0_4 x0 x1 x2 x3`. -/
theorem sound_kernel (c : Dev nD) (E : Set ℕ) (i : grid0.Coords)
    (arg1 : Memref sig .tc .vmem S3000x64 .f32) (harg1 : arg1.IsWhole) (arg2 : Memref sig .tc .vmem S3000x64 .f32) (harg2 : arg2.IsWhole)
    (arg3 : Memref sig .tc .vmem S3000x64 .f32) (harg3 : arg3.IsWhole) (arg4 : Memref sig .tc .vmem S3000x64 .f32) (harg4 : arg4.IsWhole)
    (arg5 : Memref sig .tc .vmem S3000x64 .f32) (harg5 : arg5.IsWhole)
    (x0 x1 x2 x3 : Vec F S3000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__meanpool_kernel i arg1 harg1 arg2 harg2 arg3 harg3 arg4 harg4 arg5 harg5) K := by
  simp only [cc0__meanpool_kernel_eq_skeleton]; unfold cc0__meanpool_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- On core `c`: the arrays as the region finds them; after the body at point `t` each input's buffer holds its block
    and the output's the pooled block; nothing else is kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; each of the region's arrays ends at what the
    write-backs leave, and every other unscoped buffer at what the host tail computes. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, faults nowhere, and the seven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.Kernel.MeanPool

end
-- ==== Proof.MeanPoolFrameIdeal.lean ====
/-
  The frame of the mean-pooling program: its @main is three rounds of host gather / multiply / scatter-add, one
  pipelined region over 50 grid points, and a host tail (index offsets, a concatenate, a gather, three slices).
  At grid point t the region's body reads rows 3000·t … 3000·t + 2999 of the four [150000, 64] arrays (the embedding
  table and the three propagated tables) and writes the same rows of the pooled table: the entrywise sum of the four
  blocks times 0.25.  The blocks tile the arrays, every block is fetched before the body and written back after it,
  the body keeps nothing between points, and no host line after the region writes one of the five arrays.  So every
  weakly fair execution terminates without a fault, the seven argument arrays end as they began, and every other
  unscoped buffer ends at what the host tail computes from the region's arrays — among them the three results.
-/
import proofs.«420850_j17377437680517_2_alg».proof.Proof.Gen.KernelIdeal.Launch
import proofs.«420850_j17377437680517_2_alg».proof.Proof.Gen.KernelIdeal.Skeleton
import proofs.«420850_j17377437680517_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.MeanPool

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents on core `c` when the region is entered: the 48 host operations before it applied to the
    launch memory. -/
abbrev V0 (c : Dev nD) : Valuation τ sig (Elt F) := StableHlo.after (List.flatten [hostOps0]) (fun b => m (c, b))
/-- The same, read at one buffer. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is: the host lines before the region, the region, the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The lines after the region touch only the region's arrays and buffers the region does not stage. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And none of them writes one of the region's five arrays: each writes its own result buffer. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.nary_writes, StableHlo.reshape_writes, StableHlo.binaryIndexed_writes, Finset.mem_singleton] <;> exact StableHlo.devRef_ne_of_ne (by decide)

/-! ## The argument arrays are written by no host line -/

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
    repeat' apply And.intro
    all_goals exact StableHlo.devRef_ne_of_ne (by decide)))

theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c

theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg5 (by exact (by decide : ∀ w, Pipeline.arrRef spec0 w ≠ main_arg5))]
  exact V_main_arg5 m c

theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.nary_writes, StableHlo.reshape_writes, StableHlo.binaryIndexed_writes, Finset.mem_singleton]
      repeat' apply And.intro
      all_goals exact StableHlo.devRef_ne_of_ne (by decide))),
    Pipeline.withArrays_of_ne _ c (V0 m c) _ main_arg6 (by exact (by decide : ∀ w, Pipeline.arrRef spec0 w ≠ main_arg6))]
  exact V_main_arg6 m c

/-! ## The windows' blocks -/

/-- Window `w`'s block at grid point `t`: rows 3000·t … 3000·t + 2999 of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! Each input window's staging buffer holds its block when the body starts, at every point. -/

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run to the library's post -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).1 0).trans (((dats 0 c).arrAt_in 0 rfl _).trans ((hA c 0).trans (V_main_arg0 m c))),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c)⟩) h

/-! ## The body -/

/-- The whole [3000, 64] staging buffer: the one rectangle every load and the store of the body go through. -/
abbrev r0_0 : Rect S3000x64 := Rect.unit (s := S3000x64) ![0, 0] S3000x64.size inb_S3000x64_S3000x64_0_0

/-- What the body leaves in the output window's buffer, from the four input blocks: one store of the whole buffer,
    the sum of the four blocks times 0.25. -/
def out0_4 (x0 x1 x2 x3 : Vec F S3000x64 .f32) : Vec F S3000x64 .f32 :=
  View.canon [⟨r0_0, k0_pay1 (View.ld x0 r0_0) (View.ld x1 r0_0) (View.ld x2 r0_0) (View.ld x3 r0_0)⟩]

/-- The one store covers the buffer. -/
theorem cover0_4 (p0 : Vec F S3000x64 .f32) (y : S3000x64.Idx) :
    ∃ pc ∈ ([⟨r0_0, p0⟩] : List (View.Piece (Elt F) S3000x64 .f32)), y ∈ pc.1.set :=
  View.cover_of_tiled [⟨r0_0, p0⟩] S3000x64.size (by rfl) y

set_option maxHeartbeats 1000000 in
/-- The body on whole staging memrefs, the four inputs' at contents `x0 … x3` and the output's at anything, runs to
    the end leaving the inputs' as they were and the output's at `out0_4 x0 x1 x2 x3`. -/
theorem sound_kernel (c : Dev nD) (E : Set ℕ) (i : grid0.Coords)
    (arg1 : Memref sig .tc .vmem S3000x64 .f32) (harg1 : arg1.IsWhole) (arg2 : Memref sig .tc .vmem S3000x64 .f32) (harg2 : arg2.IsWhole)
    (arg3 : Memref sig .tc .vmem S3000x64 .f32) (harg3 : arg3.IsWhole) (arg4 : Memref sig .tc .vmem S3000x64 .f32) (harg4 : arg4.IsWhole)
    (arg5 : Memref sig .tc .vmem S3000x64 .f32) (harg5 : arg5.IsWhole)
    (x0 x1 x2 x3 : Vec F S3000x64 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__meanpool_kernel i arg1 harg1 arg2 harg2 arg3 harg3 arg4 harg4 arg5 harg5) K := by
  simp only [cc0__meanpool_kernel_eq_skeleton]; unfold cc0__meanpool_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- On core `c`: the arrays as the region finds them; after the body at point `t` each input's buffer holds its block
    and the output's the pooled block; nothing else is kept, nothing owed, full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates without a fault; each of the region's arrays ends at what the
    write-backs leave, and every other unscoped buffer at what the host tail computes. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: the run terminates, faults nowhere, and the seven argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

end Cert.KernelIdeal.MeanPool

end
-- ==== Proof.MeanPoolSpec.lean ====
/-
  The mathematics of the mean-pooling lookup, with no program in sight.
  A table is an array [150000, 64] of extended reals.  The kernel pools four tables entrywise as
  ((e + c1) + c2 + c3) · 0.25; the reference as ((e + c1) + c2 + c3) / 4.  On the extended reals division by the
  real 4 is multiplication by the real 1/4 at EVERY argument, the infinities included, and the binary words
  0x3E800000 and 0x40800000 denote exactly 1/4 and 4: the two pooled tables are one function.
  A lookup reads rows of the pooled table: row `off + idx[r]` for result row `r`.
-/
import Idealize.ShloMosaic.Lib.ValueIdx
import Idealize.ShloMosaic.PureOps.Ideal

noncomputable section

namespace MeanPoolSpec

open Idealize.ShloMosaic Idealize.ShloMosaic.ValueIdx

/-- The word of 0.25 denotes the real 1/4. -/
theorem quarter : Ideal.ofBits .f32 0x3E800000#32 = ((1 / 4 : ℝ) : EReal) := by
  simp [Ideal.ofBits, Ideal.ieee, -EReal.coe_mul]; norm_num

/-- The word of 4.0 denotes the real 4. -/
theorem four : Ideal.ofBits .f32 0x40800000#32 = ((4 : ℝ) : EReal) := by
  simp [Ideal.ofBits, Ideal.ieee, -EReal.coe_mul]; norm_num

/-- Multiplying by 0.25 is dividing by 4, at every extended real. -/
theorem mul_quarter_eq_div_four (x : EReal) :
    x * Ideal.ofBits .f32 0x3E800000#32 = Ideal.div x (Ideal.ofBits .f32 0x40800000#32) := by
  rw [quarter, four, Ideal.div_coe (by norm_num : (4 : ℝ) ≠ 0)]

abbrev Table : Type := (⟨2, ![150000, 64]⟩ : Shape).Idx → EReal

/-- The pooled table: the entrywise sum of the four tables, summed left to right, times 0.25. -/
def pooled (e c1 c2 c3 : Table) : Table :=
  fun i => (e i + c1 i + c2 i + c3 i) * Ideal.ofBits .f32 0x3E800000#32

/-- The same table as the reference spells it: the sum divided by 4. -/
theorem pooled_eq_div (e c1 c2 c3 : Table) (i : (⟨2, ![150000, 64]⟩ : Shape).Idx) :
    Ideal.div (e i + c1 i + c2 i + c3 i) (Ideal.ofBits .f32 0x40800000#32) = pooled e c1 c2 c3 i :=
  (mul_quarter_eq_div_four _).symm

/-- A lookup of 4096 rows: result row `r` is row `off + idx[r]` of the table (the row clamped below 150000, so that
    the function is total; for in-range index words the clamp is the identity). -/
def lookup (P : Table) (off : Nat) (idx : (⟨1, ![4096]⟩ : Shape).Idx → BitVec 32) :
    (⟨2, ![4096, 64]⟩ : Shape).Idx → EReal :=
  fun y => P (ix2 ⟨min (off + (idx (ix1 ⟨(y 0).val, idx2_lt0 y⟩)).toNat) 149999, by omega⟩ ⟨(y 1).val, idx2_lt1 y⟩)

end MeanPoolSpec
end
-- ==== Proof.MeanPoolTable.lean ====
/-
  The pooled table after the region.  At grid point t the body's one store writes, at (r, d) of the block, the sum of
  the four input blocks' entries at (r, d) times 0.25; block t of each of the five windows is rows 3000·t … 3000·t + 2999
  (all 64 columns) of its array, so what point t writes back is block t of ONE whole-array function of the four
  tables as the region finds them.  Row r of the table lies in the block of point r / 3000, so the 50 blocks cover
  the array and it ends holding that function everywhere.
-/
import proofs.«420850_j17377437680517_2_alg».proof.Proof.MeanPoolFrameIdeal
import proofs.«420850_j17377437680517_2_alg».proof.Proof.MeanPoolSpec
import Idealize.ShloMosaic.Lib.Pipeline.Value
import Idealize.ShloMosaic.Lib.ValueIdx

set_option maxRecDepth 16384

noncomputable section

namespace Cert.KernelIdeal.MeanPoolTable

open Cert.KernelIdeal.Gen Cert.KernelIdeal.MeanPool
open Idealize.ShloMosaic Idealize.ShloMosaic.TcCoe Idealize.ShloMosaic.ValueIdx
open Idealize.SL Idealize.SL.Sem
open Idealize.ShloMosaic.Pipeline (Dat)

variable {F : FTy → Type} [FloatOps F]

theorem hz : (![0, 0] : Fin 2 → Nat) = fun _ => 0 := funext fun a => by fin_cases a <;> rfl

/-- The pooled table of four tables: their entrywise sum, left to right, times the word of 0.25. -/
abbrev G4 (a0 a1 a2 a3 : S150000x64.Idx → Elt F .f32) : S150000x64.Idx → Elt F .f32 := fun i =>
  FloatOps.mulf (FloatOps.addf (FloatOps.addf (FloatOps.addf (a0 i) (a1 i)) (a2 i)) (a3 i)) (Scalar.ofBits .f32 0x3E800000#32)

/-- At the extended reals it is the specification's `pooled`. -/
theorem G4_eq_pooled (a0 a1 a2 a3 : S150000x64.Idx → EReal) :
    G4 (F := Ideal) a0 a1 a2 a3 = MeanPoolSpec.pooled a0 a1 a2 a3 := rfl

/-- The body's stored value is the sum of its four loaded blocks, left to right, times the splat 0.25. -/
theorem pay_eq (x0 x1 x2 x3 : Vec F S3000x64 .f32) :
    k0_pay1 x0 x1 x2 x3 = mulf (addf (addf (addf x0 (shapeCast S3000x64 x1 shapeCasts_S3000x64_S3000x64))
      (shapeCast S3000x64 x2 shapeCasts_S3000x64_S3000x64)) (shapeCast S3000x64 x3 shapeCasts_S3000x64_S3000x64))
      (broadcast S3000x64 (Scalar.ofBits .f32 0x3E800000#32)) := rfl

/-- The five index maps agree at every grid point: block index (t, 0). -/
theorem idx_facts : ∀ t : Fin cfg0.N,
    win0_0.index t (0 : Fin 2) = win0_4.index t (0 : Fin 2) ∧ win0_0.index t (1 : Fin 2) = win0_4.index t (1 : Fin 2)
    ∧ win0_1.index t (0 : Fin 2) = win0_4.index t (0 : Fin 2) ∧ win0_1.index t (1 : Fin 2) = win0_4.index t (1 : Fin 2)
    ∧ win0_2.index t (0 : Fin 2) = win0_4.index t (0 : Fin 2) ∧ win0_2.index t (1 : Fin 2) = win0_4.index t (1 : Fin 2)
    ∧ win0_3.index t (0 : Fin 2) = win0_4.index t (0 : Fin 2) ∧ win0_3.index t (1 : Fin 2) = win0_4.index t (1 : Fin 2)
    ∧ win0_4.index t (0 : Fin 2) = t.val ∧ win0_4.index t (1 : Fin 2) = 0 :=
  (by decide +kernel : ∀ t : Fin grid0.N, _)

/-- AT VARIABLE TABLES: the pooled value of the four windows' blocks at point `t`, as the output window hands it back,
    is block `t` of the pooled table — each input block's entry (r, d) and the output block's entry (r, d) sit at the
    same array index, row 3000·t + r and column d. -/
theorem block_of_pooled (A0 A1 A2 A3 : S150000x64.Idx → Elt F .f32) (t : Fin cfg0.N) :
    (cfg0.win 4).cut (grid0.coords t)
      (mulf (addf (addf (addf (((cfg0.win 0).blk t).view.read (Elt F) A0) (((cfg0.win 1).blk t).view.read (Elt F) A1))
        (((cfg0.win 2).blk t).view.read (Elt F) A2)) (((cfg0.win 3).blk t).view.read (Elt F) A3))
        (broadcast S3000x64 (Scalar.ofBits .f32 0x3E800000#32)))
    = ((cfg0.win 4).blk t).view.read (Elt F) (G4 A0 A1 A2 A3) := by
  obtain ⟨e00, e01, e10, e11, e20, e21, e30, e31, -, -⟩ := idx_facts t
  funext j
  show FloatOps.mulf (FloatOps.addf (FloatOps.addf (FloatOps.addf (A0 (((cfg0.win 0).blk t).view.emb j))
        (A1 (((cfg0.win 1).blk t).view.emb j))) (A2 (((cfg0.win 2).blk t).view.emb j)))
        (A3 (((cfg0.win 3).blk t).view.emb j))) (Scalar.ofBits .f32 0x3E800000#32)
      = FloatOps.mulf (FloatOps.addf (FloatOps.addf (FloatOps.addf (A0 (((cfg0.win 4).blk t).view.emb j))
        (A1 (((cfg0.win 4).blk t).view.emb j))) (A2 (((cfg0.win 4).blk t).view.emb j)))
        (A3 (((cfg0.win 4).blk t).view.emb j))) (Scalar.ofBits .f32 0x3E800000#32)
  have h0 : ((cfg0.win 0).blk t).view.emb j = ((cfg0.win 4).blk t).view.emb j := by
    funext a; apply Fin.ext
    match a with
    | ⟨0, _⟩ => show win0_0.index t (0 : Fin 2) * 3000 + 1 * (j 0).val = win0_4.index t (0 : Fin 2) * 3000 + 1 * (j 0).val; omega
    | ⟨1, _⟩ => show win0_0.index t (1 : Fin 2) * 64 + 1 * (j 1).val = win0_4.index t (1 : Fin 2) * 64 + 1 * (j 1).val; omega
  have h1 : ((cfg0.win 1).blk t).view.emb j = ((cfg0.win 4).blk t).view.emb j := by
    funext a; apply Fin.ext
    match a with
    | ⟨0, _⟩ => show win0_1.index t (0 : Fin 2) * 3000 + 1 * (j 0).val = win0_4.index t (0 : Fin 2) * 3000 + 1 * (j 0).val; omega
    | ⟨1, _⟩ => show win0_1.index t (1 : Fin 2) * 64 + 1 * (j 1).val = win0_4.index t (1 : Fin 2) * 64 + 1 * (j 1).val; omega
  have h2 : ((cfg0.win 2).blk t).view.emb j = ((cfg0.win 4).blk t).view.emb j := by
    funext a; apply Fin.ext
    match a with
    | ⟨0, _⟩ => show win0_2.index t (0 : Fin 2) * 3000 + 1 * (j 0).val = win0_4.index t (0 : Fin 2) * 3000 + 1 * (j 0).val; omega
    | ⟨1, _⟩ => show win0_2.index t (1 : Fin 2) * 64 + 1 * (j 1).val = win0_4.index t (1 : Fin 2) * 64 + 1 * (j 1).val; omega
  have h3 : ((cfg0.win 3).blk t).view.emb j = ((cfg0.win 4).blk t).view.emb j := by
    funext a; apply Fin.ext
    match a with
    | ⟨0, _⟩ => show win0_3.index t (0 : Fin 2) * 3000 + 1 * (j 0).val = win0_4.index t (0 : Fin 2) * 3000 + 1 * (j 0).val; omega
    | ⟨1, _⟩ => show win0_3.index t (1 : Fin 2) * 64 + 1 * (j 1).val = win0_4.index t (1 : Fin 2) * 64 + 1 * (j 1).val; omega
  rw [h0, h1, h2, h3]

variable (m : (ℓ : Loc nD τ sig) → Buf (Elt F) ℓ) (ρ : Dev nD → PrngReg)

/-- What point `t` writes back is block `t` of the pooled table of the four tables as the region finds them. -/
theorem flushed_eq (c : Dev nD) (t : Fin cfg0.N) :
    (dats m 0 c).flushed 4 t = ((cfg0.win 4).blk t).view.read (Elt F)
      (G4 (V m c main_arg0) (V m c main_v12) (V m c main_v25) (V m c main_v38)) := by
  show (cfg0.win 4).cut (grid0.coords t) ((dats m 0 c).after 4 t) = _
  rw [after0_4]
  unfold out0_4
  rw [View.canon_unit_zero hz]
  simp only [View.ld_unit_zero (S := S3000x64) hz]
  rw [pay_eq]
  simp only [shapeCast_self]
  unfold iblk
  exact block_of_pooled (V m c main_arg0) (V m c main_v12) (V m c main_v25) (V m c main_v38) t

/-- An index of the table is in point `t`'s block iff each coordinate is in the block's range on its axis. -/
theorem mem_blk (t : Fin cfg0.N) (i : S150000x64.Idx) :
    i ∈ ((cfg0.win 4).blk t).view.set ↔ ∀ a : Fin 2, win0_4.index t a * S3000x64.size a ≤ (i a).val
      ∧ (i a).val < win0_4.index t a * S3000x64.size a + S3000x64.size a := by
  show i ∈ ((View.whole main_v39).slice (win0_4.rect t)).set ↔ _
  rw [View.set_slice_whole, Rect.mem_set_unit]
  exact Iff.rfl

/-- Every index of the table is in the block of the point its row names: row r in block r / 3000. -/
theorem cover (i : S150000x64.Idx) :
    ∃ t : Fin cfg0.N, (cfg0.win 4).flush t = true ∧ i ∈ ((cfg0.win 4).blk t).view.set := by
  have hi0 : (i 0).val < 150000 := (i 0).isLt
  have hi1 : (i 1).val < 64 := (i 1).isLt
  obtain ⟨t, ht⟩ : ∃ t : Fin cfg0.N, t.val = (i 0).val / 3000 :=
    ⟨⟨(i 0).val / 3000, by rw [show cfg0.N = 50 from N_0]; omega⟩, rfl⟩
  obtain ⟨-, -, -, -, -, -, -, -, e0, e1⟩ := idx_facts t
  refine ⟨t, flush0_4 t, ?_⟩
  rw [mem_blk]
  intro a
  match a with
  | ⟨0, _⟩ =>
    show win0_4.index t (0 : Fin 2) * 3000 ≤ (i 0).val ∧ (i 0).val < win0_4.index t (0 : Fin 2) * 3000 + 3000
    rw [e0, ht]; omega
  | ⟨1, _⟩ =>
    show win0_4.index t (1 : Fin 2) * 64 ≤ (i 1).val ∧ (i 1).val < win0_4.index t (1 : Fin 2) * 64 + 64
    rw [e1]; omega

/-- THE POOLED TABLE after the run: the 50 blocks tile it, so it holds the pooled function of the four tables everywhere. -/
theorem final_table (c : Dev nD) : (dats m 0 c).arrAt 4 cfg0.N
    = G4 (V m c main_arg0) (V m c main_v12) (V m c main_v25) (V m c main_v38) :=
  (dats m 0 c).arrAt_eq_of_cover 4 _ (fun t _ => flushed_eq m c t) cover

end Cert.KernelIdeal.MeanPoolTable
end
-- ==== Proof.MeanPoolIndex.lean ====
/-
  Index words.  A 32-bit index word `u` that is in range — at least 0 and below a bound N ≤ 2³¹, read signed — is
  its unsigned value: it is not negative, so the negative-index wrap `select (u < 0) (u + K) u` keeps it, its signed
  reading is its value, and the clamp into [0, N − 1] is the identity.  Adding the item offset 100000 to a word
  below 50000 does not overflow.
-/
import Idealize.ShloMosaic.Lib.ValueIdx
import Idealize.ShloMosaic.PureOps.Ideal
import Idealize.ShloMosaic.Lib.StableHlo.Predicate

namespace MeanPoolIndex

open Idealize.ShloMosaic Idealize.ShloMosaic.ValueIdx

/-- Signed `u ≥ 0` and `u < n` (a bound below 2³¹) say the word's value is below `n`. -/
theorem toNat_lt_of_range (u : BitVec 32) (n : Nat) (hn : n < 2 ^ 31)
    (h0 : IntOp.cmpi .sge u 0#32 = 1#1) (h1 : IntOp.cmpi .slt u (BitVec.ofNat 32 n) = 1#1) : u.toNat < n := by
  have e0 : ((0#32 : BitVec 32).sle u) = true := by
    have h := h0; unfold IntOp.cmpi at h; exact (StableHlo.Predicate.ofBool_eq_one_iff _).mp h
  have e1 : (u.slt (BitVec.ofNat 32 n)) = true := by
    have h := h1; unfold IntOp.cmpi at h; exact (StableHlo.Predicate.ofBool_eq_one_iff _).mp h
  simp only [BitVec.sle, BitVec.slt, decide_eq_true_eq] at e0 e1
  have hz : (0#32 : BitVec 32).toInt = 0 := by decide
  have hnI : (BitVec.ofNat 32 n).toInt = (n : Int) := by
    rw [BitVec.toInt_eq_toNat_cond]; simp only [BitVec.toNat_ofNat]
    have : n % 2 ^ 32 = n := Nat.mod_eq_of_lt (by omega)
    rw [this]; split <;> omega
  rw [hz] at e0; rw [hnI] at e1
  have hu := BitVec.toInt_eq_toNat_cond u
  have hlt : u.toNat < 2 ^ 32 := u.isLt
  split at hu <;> omega

/-- A word below 2³¹ is not negative. -/
theorem not_neg (u : BitVec 32) (hu : u.toNat < 2 ^ 31) : IntOp.cmpi .slt u 0#32 = 0#1 := by
  unfold IntOp.cmpi
  have hz : (0#32 : BitVec 32).toInt = 0 := by decide
  have hi := BitVec.toInt_eq_toNat_cond u
  have : u.slt 0#32 = false := by
    simp only [BitVec.slt, hz, decide_eq_false_iff_not]
    split at hi <;> omega
  rw [this]; rfl

/-- Its signed reading is its value. -/
theorem toInt_toNat (u : BitVec 32) (hu : u.toNat < 2 ^ 31) : u.toInt.toNat = u.toNat := by
  have hi := BitVec.toInt_eq_toNat_cond u
  split at hi <;> omega

/-- THE ROW AN IN-RANGE WORD NAMES: the wrap keeps it and the clamp into [0, N − 1] is the identity. -/
theorem row_of_inrange (u K : BitVec 32) (N : Nat) (hu : u.toNat < N) (hN : N ≤ 2 ^ 31) :
    min (Scalar.select (IntOp.cmpi .slt u 0#32) (IntOp.addi u K) u).toInt.toNat (N - 1) = u.toNat := by
  rw [not_neg u (by omega), select_zero, toInt_toNat u (by omega)]
  omega

/-- The item offset: 100000 plus a word below 50000, without overflow. -/
theorem add_offset (p : BitVec 32) (hp : p.toNat < 50000) : (IntOp.addi 100000#32 p).toNat = 100000 + p.toNat := by
  unfold IntOp.addi
  rw [BitVec.toNat_add]
  have : (100000#32 : BitVec 32).toNat = 100000 := by decide
  rw [this]; omega

end MeanPoolIndex
-- ==== Proof.LibRowGather.lean ====
/-
  A row gather read at an index.  `x[idx]` of a table `x : [N, D]` at an integer vector `idx : [R]` lowers to a gather
  with start indices `[R, 1]`, one collapsed axis (the rows), one offset axis (the columns) and slices `[1, D]`.
  Entry `(r, d)` of the result is `x` at row `idx[r, 0]`, read as a signed integer and clamped into `[0, N − 1]`,
  and column `d`.
-/
import Idealize.ShloMosaic.Lib.ValueIdx
import Idealize.ShloMosaic.PureOps.Ideal

noncomputable section

namespace RowGather

open Idealize.ShloMosaic Idealize.ShloMosaic.ValueIdx

variable {α : Type}

/-- The dimension numbers of a row gather of a table `[N, D]` at start indices `[R, 1]`, result `[R, D]`. -/
abbrev rowDims (N D R : Nat) (wf : GatherDims.WF ⟨2, ![N, D]⟩ ⟨2, ![R, 1]⟩ ⟨2, ![R, D]⟩ [1] [0] [] [0] [] 1 ![1, D]) :
    GatherDims ⟨2, ![N, D]⟩ ⟨2, ![R, 1]⟩ ⟨2, ![R, D]⟩ where
  offsetDims := [1]
  collapsedSliceDims := [0]
  operandBatchingDims := []
  startIndicesBatchingDims := []
  startIndexMap := [0]
  indexVectorDim := 1
  sliceSizes := ![1, D]
  wf := wf

/-- The start-indices index `[r, 0]` that result index `(r, d)` reads. -/
abbrev rowIdx {R D : Nat} (y : (⟨2, ![R, D]⟩ : Shape).Idx) : (⟨2, ![R, 1]⟩ : Shape).Idx :=
  ix2 ⟨(y 0).val, idx2_lt0 y⟩ ⟨0, Nat.one_pos⟩

/-- On the row axis the operand index is the clamped start index: no batching, no offset. -/
theorem coord0 {N D R w : Nat}
    (wf : GatherDims.WF ⟨2, ![N, D]⟩ ⟨2, ![R, 1]⟩ ⟨2, ![R, D]⟩ [1] [0] [] [0] [] 1 ![1, D])
    (idx : IVec ⟨2, ![R, 1]⟩ w) (y : (⟨2, ![R, D]⟩ : Shape).Idx) :
    (rowDims N D R wf).start y idx 0 + (rowDims N D R wf).batchCoord y 0 + (rowDims N D R wf).offCoord y 0
      = min (idx (rowIdx y)).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowDims N D R wf).startIndexMap from List.mem_singleton.mpr rfl)]
  have hsi : (rowDims N D R wf).siIdx y ⟨List.idxOf (0 : Fin 2) (rowDims N D R wf).startIndexMap,
      List.idxOf_lt_length_iff.2 (List.mem_singleton.mpr rfl)⟩ = rowIdx y := by
    funext b; refine Fin.ext ?_
    match b with
    | ⟨0, _⟩ => rfl
    | ⟨1, _⟩ => rfl
  rw [hsi]
  rfl

/-- On the column axis the operand index is the result's column: the start is zero, the offset the column. -/
theorem coord1 {N D R w : Nat}
    (wf : GatherDims.WF ⟨2, ![N, D]⟩ ⟨2, ![R, 1]⟩ ⟨2, ![R, D]⟩ [1] [0] [] [0] [] 1 ![1, D])
    (idx : IVec ⟨2, ![R, 1]⟩ w) (y : (⟨2, ![R, D]⟩ : Shape).Idx) :
    (rowDims N D R wf).start y idx 1 + (rowDims N D R wf).batchCoord y 1 + (rowDims N D R wf).offCoord y 1
      = (y 1).val := by
  rw [GatherDims.batchCoord_eq_zero _ _ _ List.not_mem_nil]
  unfold GatherDims.start
  rw [dif_neg (show ¬ (1 : Fin 2) ∈ ([0] : List (Fin 2)) by decide)]
  unfold GatherDims.offCoord
  rw [dif_pos ((GatherDims.mem_sKept _ _).2 ⟨(show ¬ (1 : Fin 2) ∈ ([0] : List (Fin 2)) by decide), List.not_mem_nil⟩)]
  simp only [Nat.zero_add]
  rfl

/-- THE ROW GATHER READ AT `(r, d)`: the table at the row `idx[r, 0]` names, read signed and clamped into
    `[0, N − 1]`, and column `d`. -/
theorem gather_rows_apply {N D R w : Nat} (hN : 0 < N)
    (wf : GatherDims.WF ⟨2, ![N, D]⟩ ⟨2, ![R, 1]⟩ ⟨2, ![R, D]⟩ [1] [0] [] [0] [] 1 ![1, D])
    (x : (⟨2, ![N, D]⟩ : Shape).Idx → α) (idx : IVec ⟨2, ![R, 1]⟩ w) (y : (⟨2, ![R, D]⟩ : Shape).Idx) :
    Host.gather (rowDims N D R wf) x idx y
      = x (ix2 ⟨min (idx (rowIdx y)).toInt.toNat (N - 1), by omega⟩ ⟨(y 1).val, idx2_lt1 y⟩) := by
  unfold Host.gather
  congr 1
  funext a
  refine Fin.ext ?_
  match a with
  | ⟨0, _⟩ => exact coord0 wf idx y
  | ⟨1, _⟩ => exact coord1 wf idx y

end RowGather
end
-- ==== Proof.LibNary3.lean ====
/-
  A three-operand host operation, read back.  A `concatenate` of three operands prints as an n-ary operation over the
  literal family `![x, a, b]`; its result is the operation's function of the three operands' contents, each AT ITS OWN
  reference, so that whatever wrote those operands can be read through in turn.
-/
import Idealize.ShloMosaic.Lib.StableHlo.Run

namespace Nary3

open Idealize.ShloMosaic Idealize.ShloMosaic.StableHlo

variable {τ : Topo} {sig : RefSig} {Val : EltTy → Type}

/-- The result of a three-operand operation at its own result buffer: its function of the operands' contents, the
    family written out as `Fin.cons` of the three. -/
theorem nary3_result (x a b y : Ref sig .tc)
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- Read a buffer after a literal list of host operations that may hold a three-operand one: unfold the fold, then
    rewrite each operation's result at its own buffer to its function's value and at any other buffer to what was
    there, until nothing applies. -/
macro "after_results3" : tactic =>
  `(tactic| (simp only [after_cons, after_nil]
             repeat (first
               | rw [nullary_result] | rw [unary_result] | rw [binary_result] | rw [ternary_result]
               | rw [nary3_result]
               | (rw [nullary_result_ne]; rotate_left; decide)
               | (rw [unary_result_ne]; rotate_left; decide)
               | (rw [binary_result_ne]; rotate_left; decide)
               | (rw [ternary_result_ne]; rotate_left; decide)
               | (rw [nary_result_ne]; rotate_left; decide))))

end Nary3
-- ==== Proof.MeanPoolResults.lean ====
/-
  The three results, read off the host tail.  After the region the tail forms the 12288 row words
  users ++ (100000 + pos_items) ++ (100000 + neg_items), wraps the negative ones by 150000, gathers those rows of the
  pooled table and cuts the 12288 gathered rows into three runs of 4096.  For in-range words — users below 100000,
  items below 50000 — every row word is below 150000, so nothing wraps and nothing is clamped: result row r of the
  first run is row users[r] of the pooled table, of the second row 100000 + pos_items[r], of the third row
  100000 + neg_items[r].
-/
import proofs.«420850_j17377437680517_2_alg».proof.Proof.MeanPoolTable
import proofs.«420850_j17377437680517_2_alg».proof.Proof.MeanPoolIndex
import proofs.«420850_j17377437680517_2_alg».proof.Proof.LibRowGather
import proofs.«420850_j17377437680517_2_alg».proof.Proof.LibNary3
import Idealize.ShloMosaic.Lib.StableHlo.Run
import Idealize.ShloMosaic.Lib.Pipeline.Value
import Idealize.ShloMosaic.Lib.ValueIdx

set_option maxRecDepth 16384

noncomputable section

namespace Cert.KernelIdeal.MeanPoolResults

open Cert.KernelIdeal.Gen Cert.KernelIdeal.MeanPool Cert.KernelIdeal.MeanPoolTable
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ)

/-- After the region the host tail reads the pooled table at the output array, -/
theorem read_pooled (c : Dev nD) :
    Pipeline.withArrays (cfgs 0).spec c (V0 m c) (fun w => (dats m 0 c).arrAt w (cfgs 0).N) (Proc.devRef .tc main_v39)
      = G4 (V m c main_arg0) (V m c main_v12) (V m c main_v25) (V m c main_v38) :=
  (Pipeline.withArrays_arr spec0 launch0.win.arr_inj c _ _ 4).trans (final_table m c)

/-- and the three index arguments as launched. -/
theorem read_arg4 (c : Dev nD) :
    Pipeline.withArrays (cfgs 0).spec c (V0 m c) (fun w => (dats m 0 c).arrAt w (cfgs 0).N) (Proc.devRef .tc main_arg4)
      = m ((c : Thread nD τ).loc main_arg4) :=
  (Pipeline.withArrays_of_ne spec0 c (V0 m c) _ main_arg4 (by decide)).trans (V_main_arg4 m c)
theorem read_arg5 (c : Dev nD) :
    Pipeline.withArrays (cfgs 0).spec c (V0 m c) (fun w => (dats m 0 c).arrAt w (cfgs 0).N) (Proc.devRef .tc main_arg5)
      = m ((c : Thread nD τ).loc main_arg5) :=
  (Pipeline.withArrays_of_ne spec0 c (V0 m c) _ main_arg5 (by decide)).trans (V_main_arg5 m c)
theorem read_arg6 (c : Dev nD) :
    Pipeline.withArrays (cfgs 0).spec c (V0 m c) (fun w => (dats m 0 c).arrAt w (cfgs 0).N) (Proc.devRef .tc main_arg6)
      = m ((c : Thread nD τ).loc main_arg6) :=
  (Pipeline.withArrays_of_ne spec0 c (V0 m c) _ main_arg6 (by decide)).trans (V_main_arg6 m c)

/-! ## The gathered rows as a function of the table and the three index vectors -/

section Rows

variable (P : S150000x64.Idx → EReal) (u p n : IVec S4096 32)

/-- The 12288 row words before the wrap: the user words, then each item word plus 100000. -/
def cat : IVec S12288 32 :=
  concatenate S12288 0
    [⟨S4096, u⟩,
     ⟨S4096, addi (broadcastInDim S4096 ![] bcast_S_S4096 (constantI S_ 32 100000#32)) p⟩,
     ⟨S4096, addi (broadcastInDim S4096 ![] bcast_S_S4096 (constantI S_ 32 100000#32)) n⟩]
    concatenates_S4096_S4096_S4096_S12288_d0

/-- The row words after the wrap of negative ones by 150000. -/
def rows : IVec S12288 32 :=
  select (cmpi .slt (cat u p n) (broadcastInDim S12288 ![] bcast_S_S12288 (constantI S_ 32 0#32)))
    (addi (cat u p n) (broadcastInDim S12288 ![] bcast_S_S12288 (constantI S_ 32 150000#32))) (cat u p n)

/-- The 12288 gathered rows of a table `P`. -/
def gathered : FVec Ideal S12288x64 .f32 :=
  Host.gather gather_S150000x64_S12288x1_S12288x64_1_0_n_n_0_1_164 P
    (broadcastInDim S12288x1 ![0] bcast_S12288_S12288x1_0 (rows u p n))

theorem cat_users (j : Fin 4096) : cat u p n (ix1 ⟨j.val, by omega⟩) = u (ix1 j) := by
  unfold cat
  exact concatenate_apply_piece (0 : Fin S12288.rank)
    ([⟨S4096, u⟩,
     ⟨S4096, addi (broadcastInDim S4096 ![] bcast_S_S4096 (constantI S_ 32 100000#32)) p⟩,
     ⟨S4096, addi (broadcastInDim S4096 ![] bcast_S_S4096 (constantI S_ 32 100000#32)) n⟩] : List ((s : Shape) × (s.Idx → BitVec 32)))
    concatenates_S4096_S4096_S4096_S12288_d0 (ix1 ⟨j.val, by omega⟩)
    0 (by show 0 < 3; omega) S4096 u rfl rfl 0 rfl (ix1 j)
    (fun b => match b with | ⟨0, _⟩ => fun hb => absurd rfl hb) (by show 0 + j.val = j.val; omega)

theorem cat_pos (j : Fin 4096) : cat u p n (ix1 ⟨4096 + j.val, by omega⟩) = IntOp.addi 100000#32 (p (ix1 j)) := by
  unfold cat
  exact concatenate_apply_piece (0 : Fin S12288.rank)
    ([⟨S4096, u⟩,
     ⟨S4096, addi (broadcastInDim S4096 ![] bcast_S_S4096 (constantI S_ 32 100000#32)) p⟩,
     ⟨S4096, addi (broadcastInDim S4096 ![] bcast_S_S4096 (constantI S_ 32 100000#32)) n⟩] : List ((s : Shape) × (s.Idx → BitVec 32)))
    concatenates_S4096_S4096_S4096_S12288_d0 (ix1 ⟨4096 + j.val, by omega⟩)
    1 (by show 1 < 3; omega) S4096 (addi (broadcastInDim S4096 ![] bcast_S_S4096 (constantI S_ 32 100000#32)) p) rfl rfl 4096 rfl (ix1 j)
    (fun b => match b with | ⟨0, _⟩ => fun hb => absurd rfl hb) (by show 4096 + j.val = 4096 + j.val; omega)

theorem cat_neg (j : Fin 4096) : cat u p n (ix1 ⟨8192 + j.val, by omega⟩) = IntOp.addi 100000#32 (n (ix1 j)) := by
  unfold cat
  exact concatenate_apply_piece (0 : Fin S12288.rank)
    ([⟨S4096, u⟩,
     ⟨S4096, addi (broadcastInDim S4096 ![] bcast_S_S4096 (constantI S_ 32 100000#32)) p⟩,
     ⟨S4096, addi (broadcastInDim S4096 ![] bcast_S_S4096 (constantI S_ 32 100000#32)) n⟩] : List ((s : Shape) × (s.Idx → BitVec 32)))
    concatenates_S4096_S4096_S4096_S12288_d0 (ix1 ⟨8192 + j.val, by omega⟩)
    2 (by show 2 < 3; omega) S4096 (addi (broadcastInDim S4096 ![] bcast_S_S4096 (constantI S_ 32 100000#32)) n) rfl rfl 8192 rfl (ix1 j)
    (fun b => match b with | ⟨0, _⟩ => fun hb => absurd rfl hb) (by show 8192 + j.val = 8192 + j.val; omega)

/-- A wrapped row word is the `select` on the sign of the word before the wrap. -/
theorem rows_apply (k : S12288.Idx) : rows u p n k
    = Scalar.select (IntOp.cmpi .slt (cat u p n k) 0#32) (IntOp.addi (cat u p n k) 150000#32) (cat u p n k) := rfl

/-- ONE GATHERED ROW: where the row word before the wrap has a value `k` below 150000, the gathered row is row `k`. -/
theorem gathered_row (r : Fin 12288) (d : Fin 64) (k : Nat) (hk : k < 150000)
    (hcat : (cat u p n (ix1 r)).toNat = k) : gathered P u p n (ix2 r d) = P (ix2 ⟨k, hk⟩ d) := by
  unfold gathered
  have hg : gather_S150000x64_S12288x1_S12288x64_1_0_n_n_0_1_164
      = RowGather.rowDims 150000 64 12288 gather_S150000x64_S12288x1_S12288x64_1_0_n_n_0_1_164_wf := rfl
  rw [hg, RowGather.gather_rows_apply (by decide)]
  have hb : broadcastInDim S12288x1 ![0] bcast_S12288_S12288x1_0 (rows u p n) (RowGather.rowIdx (ix2 r d)) = rows u p n (ix1 r) :=
    broadcastInDim_apply _ bcast_S12288_S12288x1_0 (rows u p n) _ (ix1 r) (fun a => match a with
      | ⟨0, _⟩ => by show r.val = if (12288 : Nat) = 1 then 0 else r.val; rw [if_neg (by decide)])
  refine congrArg P ?_
  funext a
  apply Fin.ext
  match a with
  | ⟨0, _⟩ =>
    show min (broadcastInDim S12288x1 ![0] bcast_S12288_S12288x1_0 (rows u p n) (RowGather.rowIdx (ix2 r d))).toInt.toNat (150000 - 1) = k
    rw [hb, rows_apply, MeanPoolIndex.row_of_inrange _ _ 150000 (by omega) (by norm_num)]
    exact hcat
  | ⟨1, _⟩ => rfl

/-- result_users: rows 0 … 4095 of the gathered rows are the lookup of the table at the user words. -/
theorem result_users (h : ∀ j : S4096.Idx, (u j).toNat < 100000) :
    extractStridedSlice S4096x64 ![0, 0] (gathered P u p n) slices_S12288x64_S4096x64_0_0 = MeanPoolSpec.lookup P 0 u := by
  funext y
  have hy0 : (y 0).val < 4096 := idx2_lt0 y
  have hy1 : (y 1).val < 64 := idx2_lt1 y
  have hw := h (ix1 ⟨(y 0).val, hy0⟩)
  have hc := cat_users u p n ⟨(y 0).val, hy0⟩
  rw [extractStridedSlice_apply ![0, 0] (gathered P u p n) slices_S12288x64_S4096x64_0_0 y
      (ix2 ⟨(y 0).val, by omega⟩ ⟨(y 1).val, hy1⟩) (fun a => match a with
        | ⟨0, _⟩ => by show (y 0).val = 0 + (y 0).val; omega
        | ⟨1, _⟩ => by show (y 1).val = 0 + (y 1).val; omega)]
  rw [gathered_row P u p n ⟨(y 0).val, by omega⟩ ⟨(y 1).val, hy1⟩ (0 + (u (ix1 ⟨(y 0).val, hy0⟩)).toNat) (by omega)
      ((congrArg BitVec.toNat hc).trans (Nat.zero_add _).symm)]
  unfold MeanPoolSpec.lookup
  refine congrArg P ?_
  funext a
  apply Fin.ext
  match a with
  | ⟨0, _⟩ =>
    show 0 + (u (ix1 ⟨(y 0).val, hy0⟩)).toNat = min (0 + (u (ix1 ⟨(y 0).val, idx2_lt0 y⟩)).toNat) 149999
    omega
  | ⟨1, _⟩ => rfl

/-- result_pos: rows 4096 … 8191 of the gathered rows are the lookup of the table at 100000 plus the item words. -/
theorem result_pos (h : ∀ j : S4096.Idx, (p j).toNat < 50000) :
    extractStridedSlice S4096x64 ![4096, 0] (gathered P u p n) slices_S12288x64_S4096x64_4096_0 = MeanPoolSpec.lookup P 100000 p := by
  funext y
  have hy0 : (y 0).val < 4096 := idx2_lt0 y
  have hy1 : (y 1).val < 64 := idx2_lt1 y
  have hw := h (ix1 ⟨(y 0).val, hy0⟩)
  have hc := cat_pos u p n ⟨(y 0).val, hy0⟩
  rw [extractStridedSlice_apply ![4096, 0] (gathered P u p n) slices_S12288x64_S4096x64_4096_0 y
      (ix2 ⟨4096 + (y 0).val, by omega⟩ ⟨(y 1).val, hy1⟩) (fun a => match a with
        | ⟨0, _⟩ => by show 4096 + (y 0).val = 4096 + (y 0).val; omega
        | ⟨1, _⟩ => by show (y 1).val = 0 + (y 1).val; omega)]
  rw [gathered_row P u p n ⟨4096 + (y 0).val, by omega⟩ ⟨(y 1).val, hy1⟩ (100000 + (p (ix1 ⟨(y 0).val, hy0⟩)).toNat) (by omega)
      ((congrArg BitVec.toNat hc).trans (MeanPoolIndex.add_offset _ hw))]
  unfold MeanPoolSpec.lookup
  refine congrArg P ?_
  funext a
  apply Fin.ext
  match a with
  | ⟨0, _⟩ =>
    show 100000 + (p (ix1 ⟨(y 0).val, hy0⟩)).toNat = min (100000 + (p (ix1 ⟨(y 0).val, idx2_lt0 y⟩)).toNat) 149999
    omega
  | ⟨1, _⟩ => rfl

/-- result_neg: rows 8192 … 12287 of the gathered rows are the lookup of the table at 100000 plus the item words. -/
theorem result_neg (h : ∀ j : S4096.Idx, (n j).toNat < 50000) :
    extractStridedSlice S4096x64 ![8192, 0] (gathered P u p n) slices_S12288x64_S4096x64_8192_0 = MeanPoolSpec.lookup P 100000 n := by
  funext y
  have hy0 : (y 0).val < 4096 := idx2_lt0 y
  have hy1 : (y 1).val < 64 := idx2_lt1 y
  have hw := h (ix1 ⟨(y 0).val, hy0⟩)
  have hc := cat_neg u p n ⟨(y 0).val, hy0⟩
  rw [extractStridedSlice_apply ![8192, 0] (gathered P u p n) slices_S12288x64_S4096x64_8192_0 y
      (ix2 ⟨8192 + (y 0).val, by omega⟩ ⟨(y 1).val, hy1⟩) (fun a => match a with
        | ⟨0, _⟩ => by show 8192 + (y 0).val = 8192 + (y 0).val; omega
        | ⟨1, _⟩ => by show (y 1).val = 0 + (y 1).val; omega)]
  rw [gathered_row P u p n ⟨8192 + (y 0).val, by omega⟩ ⟨(y 1).val, hy1⟩ (100000 + (n (ix1 ⟨(y 0).val, hy0⟩)).toNat) (by omega)
      ((congrArg BitVec.toNat hc).trans (MeanPoolIndex.add_offset _ hw))]
  unfold MeanPoolSpec.lookup
  refine congrArg P ?_
  funext a
  apply Fin.ext
  match a with
  | ⟨0, _⟩ =>
    show 100000 + (n (ix1 ⟨(y 0).val, hy0⟩)).toNat = min (100000 + (n (ix1 ⟨(y 0).val, idx2_lt0 y⟩)).toNat) 149999
    omega
  | ⟨1, _⟩ => rfl

end Rows

/-! ## The results after the run -/

set_option maxHeartbeats 8000000 in
/-- The user result after the run, read off the host tail. -/
theorem tail_v52 (c : Dev nD) : Pipeline.afterTail₀ cfgs (dats m) 0 (V0 m) [hostOps1] c main_v52
    = extractStridedSlice S4096x64 ![0, 0]
        (gathered (G4 (V m c main_arg0) (V m c main_v12) (V m c main_v25) (V m c main_v38))
          (m ((c : Thread nD τ).loc main_arg4)) (m ((c : Thread nD τ).loc main_arg5)) (m ((c : Thread nD τ).loc main_arg6)))
        slices_S12288x64_S4096x64_0_0 := by
  unfold Pipeline.afterTail₀
  show StableHlo.after hostOps1 _ (Proc.devRef .tc main_v52) = _
  after_results3
  rw [read_pooled m c, read_arg4 m c, read_arg5 m c, read_arg6 m c]
  rfl

set_option maxHeartbeats 8000000 in
/-- The positive-item result after the run, read off the host tail. -/
theorem tail_v53 (c : Dev nD) : Pipeline.afterTail₀ cfgs (dats m) 0 (V0 m) [hostOps1] c main_v53
    = extractStridedSlice S4096x64 ![4096, 0]
        (gathered (G4 (V m c main_arg0) (V m c main_v12) (V m c main_v25) (V m c main_v38))
          (m ((c : Thread nD τ).loc main_arg4)) (m ((c : Thread nD τ).loc main_arg5)) (m ((c : Thread nD τ).loc main_arg6)))
        slices_S12288x64_S4096x64_4096_0 := by
  unfold Pipeline.afterTail₀
  show StableHlo.after hostOps1 _ (Proc.devRef .tc main_v53) = _
  after_results3
  rw [read_pooled m c, read_arg4 m c, read_arg5 m c, read_arg6 m c]
  rfl

set_option maxHeartbeats 8000000 in
/-- The negative-item result after the run, read off the host tail. -/
theorem tail_v54 (c : Dev nD) : Pipeline.afterTail₀ cfgs (dats m) 0 (V0 m) [hostOps1] c main_v54
    = extractStridedSlice S4096x64 ![8192, 0]
        (gathered (G4 (V m c main_arg0) (V m c main_v12) (V m c main_v25) (V m c main_v38))
          (m ((c : Thread nD τ).loc main_arg4)) (m ((c : Thread nD τ).loc main_arg5)) (m ((c : Thread nD τ).loc main_arg6)))
        slices_S12288x64_S4096x64_8192_0 := by
  unfold Pipeline.afterTail₀
  show StableHlo.after hostOps1 _ (Proc.devRef .tc main_v54) = _
  after_results3
  rw [read_pooled m c, read_arg4 m c, read_arg5 m c, read_arg6 m c]
  rfl

end Cert.KernelIdeal.MeanPoolResults
end
-- ==== Proof.MeanPoolRun.lean ====
/-
  The idealized kernel's run with its results named.  Every weakly fair execution terminates; for in-range index
  words the three result arrays end at the lookups of the pooled table — rows users[r], 100000 + pos_items[r] and
  100000 + neg_items[r] — and the seven argument arrays end as they began.
-/
import proofs.«420850_j17377437680517_2_alg».proof.Proof.MeanPoolResults

set_option maxRecDepth 16384

noncomputable section

namespace Cert.KernelIdeal.MeanPoolRun

open Cert.KernelIdeal.Gen Cert.KernelIdeal.MeanPool Cert.KernelIdeal.MeanPoolTable Cert.KernelIdeal.MeanPoolResults
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The pooled table of the four tables the region finds on core `c`. -/
abbrev tableK (c : Dev nD) : S150000x64.Idx → EReal :=
  G4 (V m c main_arg0) (V m c main_v12) (V m c main_v25) (V m c main_v38)

theorem run_values
    (hu : ∀ (c : Dev nD) (j : S4096.Idx), (m ((c.tc : Thread nD τ).loc main_arg4) j).toNat < 100000)
    (hp : ∀ (c : Dev nD) (j : S4096.Idx), (m ((c.tc : Thread nD τ).loc main_arg5) j).toNat < 50000)
    (hn : ∀ (c : Dev nD) (j : S4096.Idx), (m ((c.tc : Thread nD τ).loc main_arg6) j).toNat < 50000) :
    θ_run defs (onTc (τ := τ) (main (F := Ideal))) ⟨m, fun _ => 0, ρ⟩ (fun r => ∀ c : Dev nD,
      r.2.mem ((c.tc : Thread nD τ).loc main_v52) = MeanPoolSpec.lookup (tableK m c) 0 (m ((c.tc : Thread nD τ).loc main_arg4))
      ∧ r.2.mem ((c.tc : Thread nD τ).loc main_v53) = MeanPoolSpec.lookup (tableK m c) 100000 (m ((c.tc : Thread nD τ).loc main_arg5))
      ∧ r.2.mem ((c.tc : Thread nD τ).loc main_v54) = MeanPoolSpec.lookup (tableK m c) 100000 (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨
      ((h c).2 main_v52 (Pipeline.mem_restRefs_of main_v52 (by decide) (by decide))).trans
        ((tail_v52 m c).trans (result_users _ _ _ _ (hu c))),
      ((h c).2 main_v53 (Pipeline.mem_restRefs_of main_v53 (by decide) (by decide))).trans
        ((tail_v53 m c).trans (result_pos _ _ _ _ (hp c))),
      ((h c).2 main_v54 (Pipeline.mem_restRefs_of main_v54 (by decide) (by decide))).trans
        ((tail_v54 m c).trans (result_neg _ _ _ _ (hn c))),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.MeanPoolRun
end
-- ==== Proof.MeanPoolLayers.lean ====
/-
  The three propagated tables are the same on both sides.  The kernel's @main and the reference's compute each round
  by the same host operations — wrap the negative column words, gather the current table's rows at them, multiply by
  the edge values, scatter-add into zeros at the row words — applied to the same arguments; the kernel's tables as the
  region finds them are therefore the reference's three scatter-add stages, operation for operation.
-/
import proofs.«420850_j17377437680517_2_alg».proof.Proof.MeanPoolFrameIdeal
import proofs.«420850_j17377437680517_2_alg».proof.Proof.Gen.ReferenceIdeal.Read
import Idealize.ShloMosaic.Lib.StableHlo.Run
import Idealize.ShloMosaic.PureOps.Ideal

set_option maxRecDepth 16384

noncomputable section

namespace Cert.KernelIdeal.MeanPoolLayers

open Cert.KernelIdeal.Gen Cert.KernelIdeal.MeanPool
open Idealize.ShloMosaic Idealize.ShloMosaic.TcCoe Idealize.ShloMosaic.StableHlo
open Idealize.SL Idealize.SL.Sem

variable (m : (ℓ : Loc nD τ sig) → Buf (Elt Ideal) ℓ)

set_option maxHeartbeats 8000000 in
/-- The first propagated table is the reference's first scatter-add stage of the same arguments. -/
theorem layer1 (c : Dev nD) : (V m c main_v12 : S150000x64.Idx → EReal)
    = Cert.ReferenceIdeal.Read.val_main_v12 (F := Ideal) (m ((c : Thread nD τ).loc main_arg0)) (m ((c : Thread nD τ).loc main_arg1)) (m ((c : Thread nD τ).loc main_arg2)) (m ((c : Thread nD τ).loc main_arg3)) := by
  show StableHlo.after hostOps0 (fun b => m (c, b)) (Proc.devRef .tc main_v12) = _
  after_results_simp
  rfl

set_option maxHeartbeats 8000000 in
/-- The second is its second. -/
theorem layer2 (c : Dev nD) : (V m c main_v25 : S150000x64.Idx → EReal)
    = Cert.ReferenceIdeal.Read.val_main_v26 (F := Ideal) (m ((c : Thread nD τ).loc main_arg0)) (m ((c : Thread nD τ).loc main_arg1)) (m ((c : Thread nD τ).loc main_arg2)) (m ((c : Thread nD τ).loc main_arg3)) := by
  show StableHlo.after hostOps0 (fun b => m (c, b)) (Proc.devRef .tc main_v25) = _
  after_results_simp
  rfl

set_option maxHeartbeats 8000000 in
/-- The third is its third. -/
theorem layer3 (c : Dev nD) : (V m c main_v38 : S150000x64.Idx → EReal)
    = Cert.ReferenceIdeal.Read.val_main_v40 (F := Ideal) (m ((c : Thread nD τ).loc main_arg0)) (m ((c : Thread nD τ).loc main_arg1)) (m ((c : Thread nD τ).loc main_arg2)) (m ((c : Thread nD τ).loc main_arg3)) := by
  show StableHlo.after hostOps0 (fun b => m (c, b)) (Proc.devRef .tc main_v38) = _
  after_results_simp
  rfl

end Cert.KernelIdeal.MeanPoolLayers
end
-- ==== Proof.MeanPoolRef.lean ====
/-
  The reference, read at an index.  Its pooled table is (((e + c1) + c2) + c3) / 4 with c1, c2, c3 its three
  gather / multiply / scatter-add stages, which is `pooled` of the same four tables (division by 4 is multiplication
  by 0.25).  The user rows are gathered from the first 100000 rows of that table at the user words, the item rows
  from the last 50000 rows at the item words: for in-range words — users below 100000, items below 50000 — the wrap of
  negative indices and the clamp do nothing, and the results are rows `users[r]` and `100000 + items[r]` of the pooled table.
-/
import proofs.«420850_j17377437680517_2_alg».proof.Proof.Gen.ReferenceIdeal.Run
import proofs.«420850_j17377437680517_2_alg».proof.Proof.Gen.ReferenceIdeal.Read
import proofs.«420850_j17377437680517_2_alg».proof.Proof.MeanPoolSpec
import proofs.«420850_j17377437680517_2_alg».proof.Proof.MeanPoolIndex
import proofs.«420850_j17377437680517_2_alg».proof.Proof.LibRowGather
import Idealize.ShloMosaic.Lib.ValueIdx

noncomputable section

namespace Cert.ReferenceIdeal.MeanPoolRef

open Cert.ReferenceIdeal Cert.ReferenceIdeal.Gen Cert.ReferenceIdeal.Read
open Idealize.ShloMosaic Idealize.ShloMosaic.ValueIdx

variable (x0 : FVec Ideal S150000x64 .f32) (x1 : FVec Ideal S3999136 .f32) (x2 x3 : IVec S3999136 32)

/-- The reference's pooled table: `pooled` of the embedding table and its three propagation stages. -/
abbrev pooledR : S150000x64.Idx → EReal :=
  MeanPoolSpec.pooled x0 (val_main_v12 (F := Ideal) x0 x1 x2 x3) (val_main_v26 (F := Ideal) x0 x1 x2 x3) (val_main_v40 (F := Ideal) x0 x1 x2 x3)

/-- The reference's quotient stage is that table, entry by entry. -/
theorem quot_apply (i : S150000x64.Idx) : val_main_v43 (F := Ideal) x0 x1 x2 x3 i = pooledR x0 x1 x2 x3 i := by
  rw [val_main_v43_apply, val_main_v41_apply, val_main_v27_apply, val_main_v13_apply, val_main_v42_apply, val_main_cst_7_apply]
  exact MeanPoolSpec.pooled_eq_div x0 _ _ _ i

/-- ref_users: the reference gathers rows of the first 100000 rows of its pooled table at in-range words. -/
theorem ref_users (x : IVec S4096 32) (hx : ∀ j : S4096.Idx, (x j).toNat < 100000) :
    val_main_v52 (F := Ideal) x0 x1 x2 x3 x = MeanPoolSpec.lookup (pooledR x0 x1 x2 x3) 0 x := by
  funext y
  unfold val_main_v52
  have hg : gather_S100000x64_S4096x1_S4096x64_1_0_n_n_0_1_164 = RowGather.rowDims 100000 64 4096 gather_S100000x64_S4096x1_S4096x64_1_0_n_n_0_1_164_wf := rfl
  rw [hg, RowGather.gather_rows_apply (by decide)]
  rw [val_main_v44_apply, quot_apply]
  unfold MeanPoolSpec.lookup
  have hj : idx_main_v51 (RowGather.rowIdx y) = ix1 ⟨(y 0).val, idx2_lt0 y⟩ := by
    funext a; match a with | ⟨0, _⟩ => rfl
  have hrow : min (val_main_v51 (F := Ideal) x (RowGather.rowIdx y)).toInt.toNat (100000 - 1)
      = (x (ix1 ⟨(y 0).val, idx2_lt0 y⟩)).toNat := by
    rw [val_main_v51_apply, hj, val_main_v50_apply, val_main_v47_apply, val_main_v46_apply, val_main_c_8_apply,
      val_main_v49_apply, val_main_v48_apply, val_main_c_9_apply]
    exact MeanPoolIndex.row_of_inrange _ _ 100000 (hx _) (by norm_num)
  have hlt := hx (ix1 ⟨(y 0).val, idx2_lt0 y⟩)
  congr 1
  funext a
  apply Fin.ext
  match a with
  | ⟨0, _⟩ =>
    show min (val_main_v51 (F := Ideal) x (RowGather.rowIdx y)).toInt.toNat (100000 - 1)
      = min (0 + (x (ix1 ⟨(y 0).val, idx2_lt0 y⟩)).toNat) 149999
    rw [hrow]; omega
  | ⟨1, _⟩ => rfl

/-- ref_pos: the reference gathers rows of the last 50000 rows of its pooled table at in-range words. -/
theorem ref_pos (x : IVec S4096 32) (hx : ∀ j : S4096.Idx, (x j).toNat < 50000) :
    val_main_v59 (F := Ideal) x0 x1 x2 x3 x = MeanPoolSpec.lookup (pooledR x0 x1 x2 x3) 100000 x := by
  funext y
  unfold val_main_v59
  have hg : gather_S50000x64_S4096x1_S4096x64_1_0_n_n_0_1_164 = RowGather.rowDims 50000 64 4096 gather_S50000x64_S4096x1_S4096x64_1_0_n_n_0_1_164_wf := rfl
  rw [hg, RowGather.gather_rows_apply (by decide)]
  rw [val_main_v45_apply, quot_apply]
  unfold MeanPoolSpec.lookup
  have hj : idx_main_v58 (RowGather.rowIdx y) = ix1 ⟨(y 0).val, idx2_lt0 y⟩ := by
    funext a; match a with | ⟨0, _⟩ => rfl
  have hrow : min (val_main_v58 (F := Ideal) x (RowGather.rowIdx y)).toInt.toNat (50000 - 1)
      = (x (ix1 ⟨(y 0).val, idx2_lt0 y⟩)).toNat := by
    rw [val_main_v58_apply, hj, val_main_v57_apply, val_main_v54_apply, val_main_v53_apply, val_main_c_10_apply,
      val_main_v56_apply, val_main_v55_apply, val_main_c_11_apply]
    exact MeanPoolIndex.row_of_inrange _ _ 50000 (hx _) (by norm_num)
  have hlt := hx (ix1 ⟨(y 0).val, idx2_lt0 y⟩)
  congr 1
  funext a
  apply Fin.ext
  match a with
  | ⟨0, _⟩ =>
    show 100000 + min (val_main_v58 (F := Ideal) x (RowGather.rowIdx y)).toInt.toNat (50000 - 1)
      = min (100000 + (x (ix1 ⟨(y 0).val, idx2_lt0 y⟩)).toNat) 149999
    rw [hrow]; omega
  | ⟨1, _⟩ => rfl

/-- ref_neg: the reference gathers rows of the last 50000 rows of its pooled table at in-range words. -/
theorem ref_neg (x : IVec S4096 32) (hx : ∀ j : S4096.Idx, (x j).toNat < 50000) :
    val_main_v66 (F := Ideal) x0 x1 x2 x3 x = MeanPoolSpec.lookup (pooledR x0 x1 x2 x3) 100000 x := by
  funext y
  unfold val_main_v66
  have hg : gather_S50000x64_S4096x1_S4096x64_1_0_n_n_0_1_164 = RowGather.rowDims 50000 64 4096 gather_S50000x64_S4096x1_S4096x64_1_0_n_n_0_1_164_wf := rfl
  rw [hg, RowGather.gather_rows_apply (by decide)]
  rw [val_main_v45_apply, quot_apply]
  unfold MeanPoolSpec.lookup
  have hj : idx_main_v65 (RowGather.rowIdx y) = ix1 ⟨(y 0).val, idx2_lt0 y⟩ := by
    funext a; match a with | ⟨0, _⟩ => rfl
  have hrow : min (val_main_v65 (F := Ideal) x (RowGather.rowIdx y)).toInt.toNat (50000 - 1)
      = (x (ix1 ⟨(y 0).val, idx2_lt0 y⟩)).toNat := by
    rw [val_main_v65_apply, hj, val_main_v64_apply, val_main_v61_apply, val_main_v60_apply, val_main_c_12_apply,
      val_main_v63_apply, val_main_v62_apply, val_main_c_13_apply]
    exact MeanPoolIndex.row_of_inrange _ _ 50000 (hx _) (by norm_num)
  have hlt := hx (ix1 ⟨(y 0).val, idx2_lt0 y⟩)
  congr 1
  funext a
  apply Fin.ext
  match a with
  | ⟨0, _⟩ =>
    show 100000 + min (val_main_v65 (F := Ideal) x (RowGather.rowIdx y)).toInt.toNat (50000 - 1)
      = min (100000 + (x (ix1 ⟨(y 0).val, idx2_lt0 y⟩)).toNat) 149999
    rw [hrow]; omega
  | ⟨1, _⟩ => rfl

end Cert.ReferenceIdeal.MeanPoolRef
end
-- ==== Proof.MeanPoolPre.lean ====
/-
  The precondition, read back.  It is a conjunction of five `all`-reductions: the two finiteness tests and, for each of
  the three index vectors, "every word is at least 0 and below its table's extent" (100000 users, 50000 items).  A
  reduction by `and` that comes out 1 had a 1 at every position, and a word that is signed-at-least 0 and
  signed-below n has value below n: the precondition bounds every index word.
-/
import proofs.«420850_j17377437680517_2_alg».proof.Pre_finite_inputs
import proofs.«420850_j17377437680517_2_alg».proof.Proof.MeanPoolIndex
import Idealize.ShloMosaic.Lib.ReduceAll
import Idealize.ShloMosaic.Lib.ValueIdx

namespace Cert.MeanPoolPre

open Cert.Pre_finite_inputs Idealize.ShloMosaic Idealize.ShloMosaic.ValueIdx

variable [hF : Cert.Pre_finite_inputs.Facts] {F : FTy → Type} [FloatOps F]

instance : Subsingleton S_.Idx := ⟨fun a b => funext fun d => d.elim0⟩

/-- One conjunct: the `all` of "0 ≤ x and x < n" over a vector of 4096 words came out 1, so every word is below n. -/
theorem words_lt (x : IVec S4096 32) (n : Nat) (hn : n < 2 ^ 31) (init : IVec S_ 1)
    (h : Host.reduce IntOp.andi (andi (cmpi .sge x (broadcastInDim S4096 ![] hF.bcast_S_S4096 (constantI S_ 32 0#32)))
          (cmpi .slt x (broadcastInDim S4096 ![] hF.bcast_S_S4096 (constantI S_ 32 (BitVec.ofNat 32 n))))) init
          hF.reducesTo_S4096_S_d0 hF.h_S_ ix0 = 1#1)
    (j : S4096.Idx) : (x j).toNat < n := by
  have hj := Host.reduce_andi_all _ _ _ _ ix0 h j
  obtain ⟨h1, h2⟩ := IntOp.andi_eq_one.1 hj
  exact MeanPoolIndex.toNat_lt_of_range (x j) n hn h1 h2

/-- THE RANGES: where the precondition is all ones, every user word is below 100000 and every item word below 50000. -/
theorem ranges (a0 : FVec F S150000x64 .f32) (a1 : FVec F S3999136 .f32) (a2 a3 : IVec S3999136 32) (a4 a5 a6 : IVec S4096 32)
    (h : fn (F := F) a0 a1 a2 a3 a4 a5 a6 = fun _ => 1#1) :
    (∀ j : S4096.Idx, (a4 j).toNat < 100000) ∧ (∀ j : S4096.Idx, (a5 j).toNat < 50000) ∧ (∀ j : S4096.Idx, (a6 j).toNat < 50000) := by
  have h0 := congrFun h ix0
  dsimp only [fn, fn_part1] at h0
  obtain ⟨h01, hn⟩ := IntOp.andi_eq_one.1 h0
  obtain ⟨h02, hp⟩ := IntOp.andi_eq_one.1 h01
  obtain ⟨-, hu⟩ := IntOp.andi_eq_one.1 h02
  exact ⟨words_lt a4 100000 (by norm_num) _ hu, words_lt a5 50000 (by norm_num) _ hp, words_lt a6 50000 (by norm_num) _ hn⟩

end Cert.MeanPoolPre
-- ==== Proof.lean ====
/-
  The certificate of the mean-pooling lookup: three rounds of gather / multiply / scatter-add over a bipartite graph,
  the four tables pooled as ((e + c1) + c2 + c3) · 0.25 by one pipelined region over 50 blocks of 3000 rows, then the
  user rows and the item rows looked up; against the reference ((e + c1) + c2 + c3) / 4 with the user rows taken from the
  first 100000 rows and the item rows from the last 50000.

  The precondition: the float inputs finite (never used), and every user word in [0, 100000), every item word in
  [0, 50000) — the index ranges of the tables the reference looks them up in.  Outside them the two programs wrap a
  negative index by different extents (150000 against 100000 or 50000) and read different rows.

  Frames: the two kernel programs by the frame of the region between its host prefix and tail; the reference by its
  run.  Nothing was idealized, so `preserves` has no conjunct.  The value claim: the kernel's three propagated tables
  are the reference's three scatter-add stages operation for operation, multiplying by 0.25 is dividing by 4 on the
  extended reals at every argument, so the two pooled tables are one table; and for in-range words both programs read
  row users[r], row 100000 + pos_items[r] and row 100000 + neg_items[r] of it.
-/
import proofs.«420850_j17377437680517_2_alg».proof.Defs
import proofs.«420850_j17377437680517_2_alg».proof.Proof.Gen.Kernel
import proofs.«420850_j17377437680517_2_alg».proof.Proof.Gen.KernelIdeal
import proofs.«420850_j17377437680517_2_alg».proof.Proof.Gen.ReferenceIdeal
import proofs.«420850_j17377437680517_2_alg».proof.Proof.Gen.Pre_finite_inputs
import proofs.«420850_j17377437680517_2_alg».proof.Proof.Gen.ReferenceIdeal.Run
import proofs.«420850_j17377437680517_2_alg».proof.Proof.Gen.ReferenceIdeal.Read
import proofs.«420850_j17377437680517_2_alg».proof.Proof.MeanPoolFrameBits
import proofs.«420850_j17377437680517_2_alg».proof.Proof.MeanPoolFrameIdeal
import proofs.«420850_j17377437680517_2_alg».proof.Proof.MeanPoolRun
import proofs.«420850_j17377437680517_2_alg».proof.Proof.MeanPoolLayers
import proofs.«420850_j17377437680517_2_alg».proof.Proof.MeanPoolRef
import proofs.«420850_j17377437680517_2_alg».proof.Proof.MeanPoolPre
import Idealize.ShloMosaic.Adequacy
import Idealize.ShloMosaic.Init

noncomputable section

namespace Cert.Proof

open Idealize.ShloMosaic Idealize.SL.Sem

/-- The kernel's pooled table is the reference's: the same embedding table, the same three propagated tables. -/
theorem table_eq (m : (ℓ : Loc Cert.KernelIdeal.nD Cert.KernelIdeal.τ Cert.KernelIdeal.sig) → Buf (Elt Ideal) ℓ) (c : Dev Cert.KernelIdeal.nD) :
    Cert.KernelIdeal.MeanPoolRun.tableK m c
      = Cert.ReferenceIdeal.MeanPoolRef.pooledR (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  unfold Cert.KernelIdeal.MeanPoolRun.tableK
  rw [Cert.KernelIdeal.MeanPoolTable.G4_eq_pooled, Cert.KernelIdeal.MeanPoolLayers.layer1 m c,
    Cert.KernelIdeal.MeanPoolLayers.layer2 m c, Cert.KernelIdeal.MeanPoolLayers.layer3 m c,
    Cert.KernelIdeal.MeanPool.V_main_arg0 m c]

theorem frame_k : Cert.frame_Kernel := fun m ρ _ => Cert.Kernel.MeanPool.frame m ρ

theorem frame_ki : Cert.frame_KernelIdeal := fun m ρ _ => Cert.KernelIdeal.MeanPool.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

/-- Both programs end with the three lookups of the one pooled table at the in-range index words. -/
theorem algebraic : Cert.algebraic_KernelIdeal_ReferenceIdeal := by
  intro m ρ m' ρ' hpre hagree
  have hr := fun c => Cert.MeanPoolPre.ranges (F := Ideal) _ _ _ _ _ _ _ (hpre c)
  refine ⟨_, _, _, Cert.KernelIdeal.MeanPoolRun.run_values m ρ (fun c => (hr c).1) (fun c => (hr c).2.1) (fun c => (hr c).2.2), ?_⟩
  refine (θ_run Cert.ReferenceIdeal.defs _ _).mono (fun r h c => ?_) (Cert.ReferenceIdeal.Value.run (F := Ideal) m' ρ')
  obtain ⟨a0, a1, a2, a3, a4, a5, a6⟩ := hagree c
  obtain ⟨hu, hp, hn⟩ := hr c
  refine ⟨?_, ?_, ?_, (h c).2.2.2⟩
  · rw [(h c).1, Cert.ReferenceIdeal.Read.val_main_v52_eq, a0, a1, a2, a3, a4,
      Cert.ReferenceIdeal.MeanPoolRef.ref_users _ _ _ _ _ hu, table_eq m c]
  · rw [(h c).2.1, Cert.ReferenceIdeal.Read.val_main_v59_eq, a0, a1, a2, a3, a5,
      Cert.ReferenceIdeal.MeanPoolRef.ref_pos _ _ _ _ _ hp, table_eq m c]
  · rw [(h c).2.2.1, Cert.ReferenceIdeal.Read.val_main_v66_eq, a0, a1, a2, a3, a6,
      Cert.ReferenceIdeal.MeanPoolRef.ref_neg _ _ _ _ _ hn, table_eq m c]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
